-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v79)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v79) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v84) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x3200000 : Shape := ⟨2, ![2, 3200000]⟩
abbrev S128x64 : Shape := ⟨2, ![128, 64]⟩
abbrev S64 : Shape := ⟨1, ![64]⟩
abbrev S64x64 : Shape := ⟨2, ![64, 64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_

variable [Facts]

def fn_part1 {F : FTy → Type} [FloatOps F] (main_arg5 : FVec F S64 .f32) (main_arg6 : FVec F S64x64 .f32) (main_arg7 : FVec F S64 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x64 .f32 := Host.absf main_arg6
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  main_v33

def fn {F : FTy → Type} [FloatOps F] (main_arg0 : FVec F S100000x128 .f32) (main_arg1 : IVec S2x3200000 32) (main_arg2 : FVec F S128x64 .f32) (main_arg3 : FVec F S64 .f32) (main_arg4 : FVec F S64x64 .f32) (main_arg5 : FVec F S64 .f32) (main_arg6 : FVec F S64x64 .f32) (main_arg7 : FVec F S64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x64 .f32 := Host.absf main_arg2
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg4
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg5 main_arg6 main_arg7 main_v13 main_v16
-- ==== Kernel.lean ====
abbrev S100000x128 : Shape := ⟨2, ![100000, 128]⟩
abbrev S2x3200000 : Shape := ⟨2, ![2, 3200000]⟩
abbrev S128x64 : Shape := ⟨2, ![128, 64]⟩
abbrev S64 : Shape := ⟨1, ![64]⟩
abbrev S64x64 : Shape := ⟨2, ![64, 64]⟩
abbrev S100000 : Shape := ⟨1, ![100000]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S100000x64 : Shape := ⟨2, ![100000, 64]⟩
abbrev S5000x128 : Shape := ⟨2, ![5000, 128]⟩
abbrev S5000x64 : Shape := ⟨2, ![5000, 64]⟩
abbrev S3300000x64 : Shape := ⟨2, ![3300000, 64]⟩
abbrev S1x64 : Shape := ⟨2, ![1, 64]⟩

abbrev nBuf : Space → Nat
  | .hbm => 108
  | .vmem => 30
  | .smem => 0
  | _ => 0

abbrev bufTy : (tb : Table) → Fin (tcTables nBuf tb) → BufTy
  | .hbm, ⟨0, _⟩ => ⟨S100000x128, .f32⟩
  | .hbm, ⟨1, _⟩ => ⟨S2x3200000, .i32⟩
  | .hbm, ⟨2, _⟩ => ⟨S128x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S64x64, .f32⟩
  | .hbm, ⟨7, _⟩ => ⟨S64, .f32⟩
  | .hbm, ⟨8, _⟩ => ⟨S100000, .i32⟩
  | .hbm, ⟨9, _⟩ => ⟨S1x3200000, .i32⟩
  | .hbm, ⟨10, _⟩ => ⟨S3200000, .i32⟩
  | .hbm, ⟨11, _⟩ => ⟨S3300000, .i32⟩
  | .hbm, ⟨12, _⟩ => ⟨S1x3200000, .i32⟩
  | .hbm, ⟨13, _⟩ => ⟨S3200000, .i32⟩
  | .hbm, ⟨14, _⟩ => ⟨S3300000, .i32⟩
  | .hbm, ⟨15, _⟩ => ⟨S_, .f32⟩
  | .hbm, ⟨16, _⟩ => ⟨S3300000, .f32⟩
  | .hbm, ⟨17, _⟩ => ⟨S_, .f32⟩
  | .hbm, ⟨18, _⟩ => ⟨S100000, .f32⟩
  | .hbm, ⟨19, _⟩ => ⟨S3300000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .i1⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S100000, .f32⟩
  | .hbm, ⟨28, _⟩ => ⟨S_, .f32⟩
  | .hbm, ⟨29, _⟩ => ⟨S_, .f32⟩
  | .hbm, ⟨30, _⟩ => ⟨S100000, .f32⟩
  | .hbm, ⟨31, _⟩ => ⟨S100000, .f32⟩
  | .hbm, ⟨32, _⟩ => ⟨S_, .i32⟩
  | .hbm, ⟨33, _⟩ => ⟨S3300000, .i32⟩
  | .hbm, ⟨34, _⟩ => ⟨S3300000, .i1⟩
  | .hbm, ⟨35, _⟩ => ⟨S_, .i32⟩
  | .hbm, ⟨36, _⟩ => ⟨S3300000, .i32⟩
  | .hbm, ⟨37, _⟩ => ⟨S3300000, .i32⟩
  | .hbm, ⟨38, _⟩ => ⟨S3300000, .i32⟩
  | .hbm, ⟨39, _⟩ => ⟨S3300000x1, .i32⟩
  | .hbm, ⟨40, _⟩ => ⟨S3300000, .f32⟩
  | .hbm, ⟨41, _⟩ => ⟨S_, .i32⟩
  | .hbm, ⟨42, _⟩ => ⟨S3300000, .i32⟩
  | .hbm, ⟨43, _⟩ => ⟨S3300000, .i1⟩
  | .hbm, ⟨44, _⟩ => ⟨S_, .i32⟩
  | .hbm, ⟨45, _⟩ => ⟨S3300000, .i32⟩
  | .hbm, ⟨46, _⟩ => ⟨S3300000, .i32⟩
  | .hbm, ⟨47, _⟩ => ⟨S3300000, .i32⟩
  | .hbm, ⟨48, _⟩ => ⟨S3300000x1, .i32⟩
  | .hbm, ⟨49, _⟩ => ⟨S3300000, .f32⟩
  | .hbm, ⟨50, _⟩ => ⟨S3300000, .f32⟩
  | .hbm, ⟨51, _⟩ => ⟨S100000x64, .f32⟩
  | .hbm, ⟨52, _⟩ => ⟨S_, .i32⟩
  | .hbm, ⟨53, _⟩ => ⟨S3300000, .i32⟩
  | .hbm, ⟨54, _⟩ => ⟨S3300000, .i1⟩
  | .hbm, ⟨55, _⟩ => ⟨S_, .i32⟩
  | .hbm, ⟨56, _⟩ => ⟨S3300000, .i32⟩
  | .hbm, ⟨57, _⟩ => ⟨S3300000, .i32⟩
  | .hbm, ⟨58, _⟩ => ⟨S3300000, .i32⟩
  | .hbm, ⟨59, _⟩ => ⟨S3300000x1, .i32⟩
  | .hbm, ⟨60, _⟩ => ⟨S3300000x64, .f32⟩
  | .hbm, ⟨61, _⟩ => ⟨S3300000x1, .f32⟩
  | .hbm, ⟨62, _⟩ => ⟨S3300000x64, .f32⟩
  | .hbm, ⟨63, _⟩ => ⟨S3300000x64, .f32⟩
  | .hbm, ⟨64, _⟩ => ⟨S_, .f32⟩
  | .hbm, ⟨65, _⟩ => ⟨S100000x64, .f32⟩
  | .hbm, ⟨66, _⟩ => ⟨S3300000x1, .i32⟩
  | .hbm, ⟨67, _⟩ => ⟨S100000x64, .f32⟩
  | .hbm, ⟨68, _⟩ => ⟨S1x64, .f32⟩
  | .hbm, ⟨69, _⟩ => ⟨S100000x64, .f32⟩
  | .hbm, ⟨70, _⟩ => ⟨S100000x64, .f32⟩
  | .hbm, ⟨71, _⟩ => ⟨S_, .i32⟩
  | .hbm, ⟨72, _⟩ => ⟨S3300000, .i32⟩
  | .hbm, ⟨73, _⟩ => ⟨S3300000, .i1⟩
  | .hbm, ⟨74, _⟩ => ⟨S_, .i32⟩
  | .hbm, ⟨75, _⟩ => ⟨S3300000, .i32⟩
  | .hbm, ⟨76, _⟩ => ⟨S3300000, .i32⟩
  | .hbm, ⟨77, _⟩ => ⟨S3300000, .i32⟩
  | .hbm, ⟨78, _⟩ => ⟨S3300000x1, .i32⟩
  | .hbm, ⟨79, _⟩ => ⟨S3300000x64, .f32⟩
  | .hbm, ⟨80, _⟩ => ⟨S3300000x1, .f32⟩
  | .hbm, ⟨81, _⟩ => ⟨S3300000x64, .f32⟩
  | .hbm, ⟨82, _⟩ => ⟨S3300000x64, .f32⟩
  | .hbm, ⟨83, _⟩ => ⟨S_, .f32⟩
  | .hbm, ⟨84, _⟩ => ⟨S100000x64, .f32⟩
  | .hbm, ⟨85, _⟩ => ⟨S3300000x1, .i32⟩
  | .hbm, ⟨86, _⟩ => ⟨S100000x64, .f32⟩
  | .hbm, ⟨87, _⟩ => ⟨S1x64, .f32⟩
  | .hbm, ⟨88, _⟩ => ⟨S100000x64, .f32⟩
  | .hbm, ⟨89, _⟩ => ⟨S100000x64, .f32⟩
  | .hbm, ⟨90, _⟩ => ⟨S_, .i32⟩
  | .hbm, ⟨91, _⟩ => ⟨S3300000, .i32⟩
  | .hbm, ⟨92, _⟩ => ⟨S3300000, .i1⟩
  | .hbm, ⟨93, _⟩ => ⟨S_, .i32⟩
  | .hbm, ⟨94, _⟩ => ⟨S3300000, .i32⟩
  | .hbm, ⟨95, _⟩ => ⟨S3300000, .i32⟩
  | .hbm, ⟨96, _⟩ => ⟨S3300000, .i32⟩
  | .hbm, ⟨97, _⟩ => ⟨S3300000x1, .i32⟩
  | .hbm, ⟨98, _⟩ => ⟨S3300000x64, .f32⟩
  | .hbm, ⟨99, _⟩ => ⟨S3300000x1, .f32⟩
  | .hbm, ⟨100, _⟩ => ⟨S3300000x64, .f32⟩
  | .hbm, ⟨101, _⟩ => ⟨S3300000x64, .f32⟩
  | .hbm, ⟨102, _⟩ => ⟨S_, .f32⟩
  | .hbm, ⟨103, _⟩ => ⟨S100000x64, .f32⟩
  | .hbm, ⟨104, _⟩ => ⟨S3300000x1, .i32⟩
  | .hbm, ⟨105, _⟩ => ⟨S100000x64, .f32⟩
  | .hbm, ⟨106, _⟩ => ⟨S1x64, .f32⟩
  | .hbm, ⟨107, _⟩ => ⟨S100000x64, .f32⟩
  | .local _ .vmem, ⟨0, _⟩ => ⟨S5000x128, .f32⟩
  | .local _ .vmem, ⟨1, _⟩ => ⟨S5000x128, .f32⟩
  | .local _ .vmem, ⟨2, _⟩ => ⟨S128x64, .f32⟩
  | .local _ .vmem, ⟨3, _⟩ => ⟨S5000x64, .f32⟩
  | .local _ .vmem, ⟨4, _⟩ => ⟨S5000x64, .f32⟩
  | .local _ .vmem, ⟨5, _⟩ => ⟨S5000x64, .f32⟩
  | .local _ .vmem, ⟨6, _⟩ => ⟨S5000x64, .f32⟩
  | .local _ .vmem, ⟨7, _⟩ => ⟨S1x64, .f32⟩
  | .local _ .vmem, ⟨8, _⟩ => ⟨S5000x64, .f32⟩
  | .local _ .vmem, ⟨9, _⟩ => ⟨S5000x64, .f32⟩
  | .local _ .vmem, ⟨10, _⟩ => ⟨S5000x64, .f32⟩
  | .local _ .vmem, ⟨11, _⟩ => ⟨S5000x64, .f32⟩
  | .local _ .vmem, ⟨12, _⟩ => ⟨S64x64, .f32⟩
  | .local _ .vmem, ⟨13, _⟩ => ⟨S5000x64, .f32⟩
  | .local _ .vmem, ⟨14, _⟩ => ⟨S5000x64, .f32⟩
  | .local _ .vmem, ⟨15, _⟩ => ⟨S5000x64, .f32⟩
  | .local _ .vmem, ⟨16, _⟩ => ⟨S5000x64, .f32⟩
  | .local _ .vmem, ⟨17, _⟩ => ⟨S1x64, .f32⟩
  | .local _ .vmem, ⟨18, _⟩ => ⟨S5000x64, .f32⟩
  | .local _ .vmem, ⟨19, _⟩ => ⟨S5000x64, .f32⟩
  | .local _ .vmem, ⟨20, _⟩ => ⟨S5000x64, .f32⟩
  | .local _ .vmem, ⟨21, _⟩ => ⟨S5000x64, .f32⟩
  | .local _ .vmem, ⟨22, _⟩ => ⟨S64x64, .f32⟩
  | .local _ .vmem, ⟨23, _⟩ => ⟨S5000x64, .f32⟩
  | .local _ .vmem, ⟨24, _⟩ => ⟨S5000x64, .f32⟩
  | .local _ .vmem, ⟨25, _⟩ => ⟨S5000x64, .f32⟩
  | .local _ .vmem, ⟨26, _⟩ => ⟨S5000x64, .f32⟩
  | .local _ .vmem, ⟨27, _⟩ => ⟨S1x64, .f32⟩
  | .local _ .vmem, ⟨28, _⟩ => ⟨S5000x64, .f32⟩
  | .local _ .vmem, ⟨29, _⟩ => ⟨S5000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_3 : Ref sig .tc := ⟨.hbm, 28, rfl⟩
abbrev main_call0_v0 : Ref sig .tc := ⟨.hbm, 29, rfl⟩
abbrev main_call0_v1 : Ref sig .tc := ⟨.hbm, 30, rfl⟩
abbrev main_v16 : Ref sig .tc := ⟨.hbm, 31, rfl⟩
abbrev main_c : Ref sig .tc := ⟨.hbm, 32, rfl⟩
abbrev main_v17 : Ref sig .tc := ⟨.hbm, 33, rfl⟩
abbrev main_v18 : Ref sig .tc := ⟨.hbm, 34, rfl⟩
abbrev main_c_4 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_c_6 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_c_7 : Ref sig .tc := ⟨.hbm, 52, rfl⟩
abbrev main_v33 : Ref sig .tc := ⟨.hbm, 53, rfl⟩
abbrev main_v34 : Ref sig .tc := ⟨.hbm, 54, rfl⟩
abbrev main_c_8 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_cst_9 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_c_10 : Ref sig .tc := ⟨.hbm, 71, rfl⟩
abbrev main_v49 : Ref sig .tc := ⟨.hbm, 72, rfl⟩
abbrev main_v50 : Ref sig .tc := ⟨.hbm, 73, rfl⟩
abbrev main_c_11 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_cst_12 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_c_13 : Ref sig .tc := ⟨.hbm, 90, rfl⟩
abbrev main_v65 : Ref sig .tc := ⟨.hbm, 91, rfl⟩
abbrev main_v66 : Ref sig .tc := ⟨.hbm, 92, rfl⟩
abbrev main_c_14 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_cst_15 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc4_stg0_0 : Ref sig .tc := ⟨.vmem, 20, rfl⟩
abbrev cc4_stg0_1 : Ref sig .tc := ⟨.vmem, 21, rfl⟩
abbrev cc4_stg1_0 : Ref sig .tc := ⟨.vmem, 22, rfl⟩
abbrev cc4_stg2_0 : Ref sig .tc := ⟨.vmem, 23, rfl⟩
abbrev cc4_stg2_1 : Ref sig .tc := ⟨.vmem, 24, rfl⟩
abbrev cc5_stg0_0 : Ref sig .tc := ⟨.vmem, 25, rfl⟩
abbrev cc5_stg0_1 : Ref sig .tc := ⟨.vmem, 26, rfl⟩
abbrev cc5_stg1_0 : Ref sig .tc := ⟨.vmem, 27, rfl⟩
abbrev cc5_stg2_0 : Ref sig .tc := ⟨.vmem, 28, rfl⟩
abbrev cc5_stg2_1 : Ref sig .tc := ⟨.vmem, 29, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc4_sem0_0 : DmaSem sig := 20
abbrev cc4_sem0_1 : DmaSem sig := 21
abbrev cc4_sem1_0 : DmaSem sig := 22
abbrev cc4_sem2_0 : DmaSem sig := 23
abbrev cc4_sem2_1 : DmaSem sig := 24
abbrev cc5_sem0_0 : DmaSem sig := 25
abbrev cc5_sem0_1 : DmaSem sig := 26
abbrev cc5_sem1_0 : DmaSem sig := 27
abbrev cc5_sem2_0 : DmaSem sig := 28
abbrev cc5_sem2_1 : DmaSem sig := 29

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S64x64 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S5000x64 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![20], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x64 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S5000x64 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S5000x64_S5000x64_0_0 : ∀ a, (![0, 0] : Fin 2 → Nat) a + S5000x64.size a ≤ S5000x64.size a
  h_S5000x64 : 0 < S5000x64.numel
  bcast_S3300000x1_S3300000x64_0_1 : S3300000x1.BroadcastsInDim S3300000x64 (![0, 1] : Fin 2 → Fin S3300000x64.rank)
  bcast_S_S100000x64 : S_.BroadcastsInDim S100000x64 (![] : Fin 0 → Fin S100000x64.rank)
  shapeCasts_S64_S1x64 : S64.ShapeCasts S1x64
  shapeCasts_S5000x64_S5000x64 : S5000x64.ShapeCasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S64x64_S64x64_0_0 : ∀ a, (![0, 0] : Fin 2 → Nat) a + S64x64.size a ≤ S64x64.size a
  h_S64x64 : 0 < S64x64.numel
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S5000x128_S128x64_S5000x64_1_0_0_1_n_n_wf : DotDims.WF S5000x128 S128x64 S5000x64 [1] [0] [0] [1] [] []
  gather_S100000x64_S3300000x1_S3300000x64_1_0_n_n_0_1_164_wf : GatherDims.WF S100000x64 S3300000x1 S3300000x64 [1] [0] [] [0] [] 1 ![1, 64]
  scatter_S100000x64_S3300000x1_S3300000x64_1_0_0_1_wf : ScatterDims.WF S100000x64 S3300000x1 S3300000x64 [1] [0] [0] 1
  dot_S5000x64_S64x64_S5000x64_1_0_0_1_n_n_wf : DotDims.WF S5000x64 S64x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S100000x64.size a
  hwx0_2 : ∀ i : grid0.Coords, EltTy.bits .f32 = 32 ∨ (Rect.block (s := S100000x64) S5000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x64.size a ≤ S100000x64.size a
  hwx1_2 : ∀ i : grid1.Coords, EltTy.bits .f32 = 32 ∨ (Rect.block (s := S100000x64) S5000x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S100000x64.size a
  hwx2_0 : ∀ i : grid2.Coords, EltTy.bits .f32 = 32 ∨ (Rect.block (s := S100000x64) S5000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x64.size a ≤ S64x64.size a
  hwx2_1 : ∀ i : grid2.Coords, EltTy.bits .f32 = 32 ∨ (Rect.block (s := S64x64) S64x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x64.size a ≤ S100000x64.size a
  hwx2_2 : ∀ i : grid2.Coords, EltTy.bits .f32 = 32 ∨ (Rect.block (s := S100000x64) S5000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S100000x64.size a
  hwx3_0 : ∀ i : grid3.Coords, EltTy.bits .f32 = 32 ∨ (Rect.block (s := S100000x64) S5000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x64.size a ≤ S1x64.size a
  hwx3_1 : ∀ i : grid3.Coords, EltTy.bits .f32 = 32 ∨ (Rect.block (s := S1x64) S1x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x64.size a ≤ S100000x64.size a
  hwx3_2 : ∀ i : grid3.Coords, EltTy.bits .f32 = 32 ∨ (Rect.block (s := S100000x64) S5000x64.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x64.size a ≤ S100000x64.size a
  hwx4_0 : ∀ i : grid4.Coords, EltTy.bits .f32 = 32 ∨ (Rect.block (s := S100000x64) S5000x64.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S64x64.size a ≤ S64x64.size a
  hwx4_1 : ∀ i : grid4.Coords, EltTy.bits .f32 = 32 ∨ (Rect.block (s := S64x64) S64x64.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x64.size a ≤ S100000x64.size a
  hwx4_2 : ∀ i : grid4.Coords, EltTy.bits .f32 = 32 ∨ (Rect.block (s := S100000x64) S5000x64.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x64.size a ≤ S100000x64.size a
  hwx5_0 : ∀ i : grid5.Coords, EltTy.bits .f32 = 32 ∨ (Rect.block (s := S100000x64) S5000x64.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x64.size a ≤ S1x64.size a
  hwx5_1 : ∀ i : grid5.Coords, EltTy.bits .f32 = 32 ∨ (Rect.block (s := S1x64) S1x64.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S5000x64.size a ≤ S100000x64.size a
  hwx5_2 : ∀ i : grid5.Coords, EltTy.bits .f32 = 32 ∨ (Rect.block (s := S100000x64) S5000x64.size (cc5_transform_2 i) (hinb5_2 i)).WholeWords (EltTy.packing .f32)

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S100000x64_S3300000x1_S3300000x64_1_0_n_n_0_1_164 : GatherDims S100000x64 S3300000x1 S3300000x64 where
  offsetDims := [1]
  collapsedSliceDims := [0]
  operandBatchingDims := []
  startIndicesBatchingDims := []
  startIndexMap := [0]
  indexVectorDim := 1
  sliceSizes := ![1, 64]
  wf := gather_S100000x64_S3300000x1_S3300000x64_1_0_n_n_0_1_164_wf
def scatter_S100000x64_S3300000x1_S3300000x64_1_0_0_1 : ScatterDims S100000x64 S3300000x1 S3300000x64 where
  updateWindowDims := [1]
  insertedWindowDims := [0]
  scatterDimsToOperandDims := [0]
  indexVectorDim := 1
  wf := scatter_S100000x64_S3300000x1_S3300000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v32) S5000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v45) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v46) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v47) S5000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v47) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S64x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v48) S5000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v61) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v62) S1x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v63) S5000x64.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v63) S5000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg6) S64x64.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v64) S5000x64.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v77) S5000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v78) S1x64.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v79) S5000x64.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

class Facts : Prop extends Facts₀ where

variable [Facts]
-- ==== ReferenceIdeal.lean ====
abbrev S100000x128 : Shape := ⟨2, ![100000, 128]⟩
abbrev S2x3200000 : Shape := ⟨2, ![2, 3200000]⟩
abbrev S128x64 : Shape := ⟨2, ![128, 64]⟩
abbrev S64 : Shape := ⟨1, ![64]⟩
abbrev S64x64 : Shape := ⟨2, ![64, 64]⟩
abbrev S100000 : Shape := ⟨1, ![100000]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S100000x64 : Shape := ⟨2, ![100000, 64]⟩
abbrev S3300000x64 : Shape := ⟨2, ![3300000, 64]⟩
abbrev S1x64 : Shape := ⟨2, ![1, 64]⟩

abbrev nBuf : Space → Nat
  | .hbm => 117
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x3200000, .i32⟩
  | .hbm, ⟨2, _⟩ => ⟨S128x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S64x64, .f32⟩
  | .hbm, ⟨7, _⟩ => ⟨S64, .f32⟩
  | .hbm, ⟨8, _⟩ => ⟨S100000, .i32⟩
  | .hbm, ⟨9, _⟩ => ⟨S1x3200000, .i32⟩
  | .hbm, ⟨10, _⟩ => ⟨S3200000, .i32⟩
  | .hbm, ⟨11, _⟩ => ⟨S3300000, .i32⟩
  | .hbm, ⟨12, _⟩ => ⟨S1x3200000, .i32⟩
  | .hbm, ⟨13, _⟩ => ⟨S3200000, .i32⟩
  | .hbm, ⟨14, _⟩ => ⟨S3300000, .i32⟩
  | .hbm, ⟨15, _⟩ => ⟨S_, .f32⟩
  | .hbm, ⟨16, _⟩ => ⟨S3300000, .f32⟩
  | .hbm, ⟨17, _⟩ => ⟨S_, .f32⟩
  | .hbm, ⟨18, _⟩ => ⟨S100000, .f32⟩
  | .hbm, ⟨19, _⟩ => ⟨S3300000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .i1⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S100000, .f32⟩
  | .hbm, ⟨28, _⟩ => ⟨S_, .f32⟩
  | .hbm, ⟨29, _⟩ => ⟨S_, .f32⟩
  | .hbm, ⟨30, _⟩ => ⟨S100000, .f32⟩
  | .hbm, ⟨31, _⟩ => ⟨S100000, .f32⟩
  | .hbm, ⟨32, _⟩ => ⟨S_, .i32⟩
  | .hbm, ⟨33, _⟩ => ⟨S3300000, .i32⟩
  | .hbm, ⟨34, _⟩ => ⟨S3300000, .i1⟩
  | .hbm, ⟨35, _⟩ => ⟨S_, .i32⟩
  | .hbm, ⟨36, _⟩ => ⟨S3300000, .i32⟩
  | .hbm, ⟨37, _⟩ => ⟨S3300000, .i32⟩
  | .hbm, ⟨38, _⟩ => ⟨S3300000, .i32⟩
  | .hbm, ⟨39, _⟩ => ⟨S3300000x1, .i32⟩
  | .hbm, ⟨40, _⟩ => ⟨S3300000, .f32⟩
  | .hbm, ⟨41, _⟩ => ⟨S_, .i32⟩
  | .hbm, ⟨42, _⟩ => ⟨S3300000, .i32⟩
  | .hbm, ⟨43, _⟩ => ⟨S3300000, .i1⟩
  | .hbm, ⟨44, _⟩ => ⟨S_, .i32⟩
  | .hbm, ⟨45, _⟩ => ⟨S3300000, .i32⟩
  | .hbm, ⟨46, _⟩ => ⟨S3300000, .i32⟩
  | .hbm, ⟨47, _⟩ => ⟨S3300000, .i32⟩
  | .hbm, ⟨48, _⟩ => ⟨S3300000x1, .i32⟩
  | .hbm, ⟨49, _⟩ => ⟨S3300000, .f32⟩
  | .hbm, ⟨50, _⟩ => ⟨S3300000, .f32⟩
  | .hbm, ⟨51, _⟩ => ⟨S100000x64, .f32⟩
  | .hbm, ⟨52, _⟩ => ⟨S_, .i32⟩
  | .hbm, ⟨53, _⟩ => ⟨S3300000, .i32⟩
  | .hbm, ⟨54, _⟩ => ⟨S3300000, .i1⟩
  | .hbm, ⟨55, _⟩ => ⟨S_, .i32⟩
  | .hbm, ⟨56, _⟩ => ⟨S3300000, .i32⟩
  | .hbm, ⟨57, _⟩ => ⟨S3300000, .i32⟩
  | .hbm, ⟨58, _⟩ => ⟨S3300000, .i32⟩
  | .hbm, ⟨59, _⟩ => ⟨S3300000x1, .i32⟩
  | .hbm, ⟨60, _⟩ => ⟨S3300000x64, .f32⟩
  | .hbm, ⟨61, _⟩ => ⟨S3300000x1, .f32⟩
  | .hbm, ⟨62, _⟩ => ⟨S3300000x64, .f32⟩
  | .hbm, ⟨63, _⟩ => ⟨S3300000x64, .f32⟩
  | .hbm, ⟨64, _⟩ => ⟨S_, .f32⟩
  | .hbm, ⟨65, _⟩ => ⟨S100000x64, .f32⟩
  | .hbm, ⟨66, _⟩ => ⟨S3300000x1, .i32⟩
  | .hbm, ⟨67, _⟩ => ⟨S100000x64, .f32⟩
  | .hbm, ⟨68, _⟩ => ⟨S1x64, .f32⟩
  | .hbm, ⟨69, _⟩ => ⟨S100000x64, .f32⟩
  | .hbm, ⟨70, _⟩ => ⟨S100000x64, .f32⟩
  | .hbm, ⟨71, _⟩ => ⟨S_, .f32⟩
  | .hbm, ⟨72, _⟩ => ⟨S100000x64, .f32⟩
  | .hbm, ⟨73, _⟩ => ⟨S100000x64, .f32⟩
  | .hbm, ⟨74, _⟩ => ⟨S100000x64, .f32⟩
  | .hbm, ⟨75, _⟩ => ⟨S_, .i32⟩
  | .hbm, ⟨76, _⟩ => ⟨S3300000, .i32⟩
  | .hbm, ⟨77, _⟩ => ⟨S3300000, .i1⟩
  | .hbm, ⟨78, _⟩ => ⟨S_, .i32⟩
  | .hbm, ⟨79, _⟩ => ⟨S3300000, .i32⟩
  | .hbm, ⟨80, _⟩ => ⟨S3300000, .i32⟩
  | .hbm, ⟨81, _⟩ => ⟨S3300000, .i32⟩
  | .hbm, ⟨82, _⟩ => ⟨S3300000x1, .i32⟩
  | .hbm, ⟨83, _⟩ => ⟨S3300000x64, .f32⟩
  | .hbm, ⟨84, _⟩ => ⟨S3300000x1, .f32⟩
  | .hbm, ⟨85, _⟩ => ⟨S3300000x64, .f32⟩
  | .hbm, ⟨86, _⟩ => ⟨S3300000x64, .f32⟩
  | .hbm, ⟨87, _⟩ => ⟨S_, .f32⟩
  | .hbm, ⟨88, _⟩ => ⟨S100000x64, .f32⟩
  | .hbm, ⟨89, _⟩ => ⟨S3300000x1, .i32⟩
  | .hbm, ⟨90, _⟩ => ⟨S100000x64, .f32⟩
  | .hbm, ⟨91, _⟩ => ⟨S1x64, .f32⟩
  | .hbm, ⟨92, _⟩ => ⟨S100000x64, .f32⟩
  | .hbm, ⟨93, _⟩ => ⟨S100000x64, .f32⟩
  | .hbm, ⟨94, _⟩ => ⟨S_, .f32⟩
  | .hbm, ⟨95, _⟩ => ⟨S100000x64, .f32⟩
  | .hbm, ⟨96, _⟩ => ⟨S100000x64, .f32⟩
  | .hbm, ⟨97, _⟩ => ⟨S100000x64, .f32⟩
  | .hbm, ⟨98, _⟩ => ⟨S_, .i32⟩
  | .hbm, ⟨99, _⟩ => ⟨S3300000, .i32⟩
  | .hbm, ⟨100, _⟩ => ⟨S3300000, .i1⟩
  | .hbm, ⟨101, _⟩ => ⟨S_, .i32⟩
  | .hbm, ⟨102, _⟩ => ⟨S3300000, .i32⟩
  | .hbm, ⟨103, _⟩ => ⟨S3300000, .i32⟩
  | .hbm, ⟨104, _⟩ => ⟨S3300000, .i32⟩
  | .hbm, ⟨105, _⟩ => ⟨S3300000x1, .i32⟩
  | .hbm, ⟨106, _⟩ => ⟨S3300000x64, .f32⟩
  | .hbm, ⟨107, _⟩ => ⟨S3300000x1, .f32⟩
  | .hbm, ⟨108, _⟩ => ⟨S3300000x64, .f32⟩
  | .hbm, ⟨109, _⟩ => ⟨S3300000x64, .f32⟩
  | .hbm, ⟨110, _⟩ => ⟨S_, .f32⟩
  | .hbm, ⟨111, _⟩ => ⟨S100000x64, .f32⟩
  | .hbm, ⟨112, _⟩ => ⟨S3300000x1, .i32⟩
  | .hbm, ⟨113, _⟩ => ⟨S100000x64, .f32⟩
  | .hbm, ⟨114, _⟩ => ⟨S1x64, .f32⟩
  | .hbm, ⟨115, _⟩ => ⟨S100000x64, .f32⟩
  | .hbm, ⟨116, _⟩ => ⟨S100000x64, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_3 : Ref sig .tc := ⟨.hbm, 28, rfl⟩
abbrev main_call0_v0 : Ref sig .tc := ⟨.hbm, 29, rfl⟩
abbrev main_call0_v1 : Ref sig .tc := ⟨.hbm, 30, rfl⟩
abbrev main_v16 : Ref sig .tc := ⟨.hbm, 31, rfl⟩
abbrev main_c : Ref sig .tc := ⟨.hbm, 32, rfl⟩
abbrev main_v17 : Ref sig .tc := ⟨.hbm, 33, rfl⟩
abbrev main_v18 : Ref sig .tc := ⟨.hbm, 34, rfl⟩
abbrev main_c_4 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_c_6 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_c_7 : Ref sig .tc := ⟨.hbm, 52, rfl⟩
abbrev main_v33 : Ref sig .tc := ⟨.hbm, 53, rfl⟩
abbrev main_v34 : Ref sig .tc := ⟨.hbm, 54, rfl⟩
abbrev main_c_8 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_cst_9 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_call1_cst : Ref sig .tc := ⟨.hbm, 71, rfl⟩
abbrev main_call1_v0 : Ref sig .tc := ⟨.hbm, 72, rfl⟩
abbrev main_v49 : Ref sig .tc := ⟨.hbm, 73, rfl⟩
abbrev main_v50 : Ref sig .tc := ⟨.hbm, 74, rfl⟩
abbrev main_c_10 : Ref sig .tc := ⟨.hbm, 75, rfl⟩
abbrev main_v51 : Ref sig .tc := ⟨.hbm, 76, rfl⟩
abbrev main_v52 : Ref sig .tc := ⟨.hbm, 77, rfl⟩
abbrev main_c_11 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_cst_12 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_call2_cst : Ref sig .tc := ⟨.hbm, 94, rfl⟩
abbrev main_call2_v0 : Ref sig .tc := ⟨.hbm, 95, rfl⟩
abbrev main_v67 : Ref sig .tc := ⟨.hbm, 96, rfl⟩
abbrev main_v68 : Ref sig .tc := ⟨.hbm, 97, rfl⟩
abbrev main_c_13 : Ref sig .tc := ⟨.hbm, 98, rfl⟩
abbrev main_v69 : Ref sig .tc := ⟨.hbm, 99, rfl⟩
abbrev main_v70 : Ref sig .tc := ⟨.hbm, 100, rfl⟩
abbrev main_c_14 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_cst_15 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  bcast_S3300000x1_S3300000x64_0_1 : S3300000x1.BroadcastsInDim S3300000x64 (![0, 1] : Fin 2 → Fin S3300000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S100000x128_S128x64_S100000x64_1_0_0_1_n_n_wf : DotDims.WF S100000x128 S128x64 S100000x64 [1] [0] [0] [1] [] []
  gather_S100000x64_S3300000x1_S3300000x64_1_0_n_n_0_1_164_wf : GatherDims.WF S100000x64 S3300000x1 S3300000x64 [1] [0] [] [0] [] 1 ![1, 64]
  scatter_S100000x64_S3300000x1_S3300000x64_1_0_0_1_wf : ScatterDims.WF S100000x64 S3300000x1 S3300000x64 [1] [0] [0] 1
  dot_S100000x64_S64x64_S100000x64_1_0_0_1_n_n_wf : DotDims.WF S100000x64 S64x64 S100000x64 [1] [0] [0] [1] [] []

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S3300000x1_S3300000x64_1_0_n_n_0_1_164 : GatherDims S100000x64 S3300000x1 S3300000x64 where
  offsetDims := [1]
  collapsedSliceDims := [0]
  operandBatchingDims := []
  startIndicesBatchingDims := []
  startIndexMap := [0]
  indexVectorDim := 1
  sliceSizes := ![1, 64]
  wf := gather_S100000x64_S3300000x1_S3300000x64_1_0_n_n_0_1_164_wf
def scatter_S100000x64_S3300000x1_S3300000x64_1_0_0_1 : ScatterDims S100000x64 S3300000x1 S3300000x64 where
  updateWindowDims := [1]
  insertedWindowDims := [0]
  scatterDimsToOperandDims := [0]
  indexVectorDim := 1
  wf := scatter_S100000x64_S3300000x1_S3300000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf

class Facts : Prop extends Facts₀ where

variable [Facts]
-- ==== Proof.KAgg.lean ====
/-
  One round of message passing, as the host program spells it.

  Every edge e carries a source node s(e), a target node d(e) and a weight n(e). The round gathers row s(e) of the
  node features h for every edge (a negative index word is first moved up by the number of nodes), scales the row by
  n(e), and adds it into row d(e) of a zero matrix. The kernel's program and the reference apply exactly these
  operations three times, to different features h; both are stated with this one function, so that the proof never
  has to open a gather or a scatter.
-/
import proofs.«152441_j7919919694018_1_alg».proof.KernelIdeal

noncomputable section

namespace Cert.KernelIdeal.Gcn

open Cert.KernelIdeal Idealize.ShloMosaic

variable {F : FTy → Type} [FloatOps F] [Facts₀]
open Facts₀

/-- The index words with the negative ones moved up by 100000 (the number of nodes). -/
def wrap (s : IVec S3300000 32) : IVec S3300000 32 :=
  select (cmpi .slt s (broadcastInDim S3300000 ![] bcast_S_S3300000 (constantI S_ 32 0#32)))
    (addi s (broadcastInDim S3300000 ![] bcast_S_S3300000 (constantI S_ 32 100000#32))) s

/-- The rows of `h` named by `s`, each scaled by the edge's weight `n`, added into the rows named by `d`. -/
def agg (h : FVec F S100000x64 .f32) (s d : IVec S3300000 32) (n : FVec F S3300000 .f32) : FVec F S100000x64 .f32 :=
  Host.scatterAdd scatter_S100000x64_S3300000x1_S3300000x64_1_0_0_1
    (broadcastInDim S100000x64 ![] bcast_S_S100000x64 (constant S_ .f32 0x00000000#32))
    (broadcastInDim S3300000x1 ![0] bcast_S3300000_S3300000x1_0 d)
    (mulf (Host.gather gather_S100000x64_S3300000x1_S3300000x64_1_0_n_n_0_1_164 h
        (broadcastInDim S3300000x1 ![0] bcast_S3300000_S3300000x1_0 (wrap s)))
      (broadcastInDim S3300000x64 ![0, 1] bcast_S3300000x1_S3300000x64_0_1
        (broadcastInDim S3300000x1 ![0] bcast_S3300000_S3300000x1_0 n)))

end Cert.KernelIdeal.Gcn

end
-- ==== Proof.LibDenseLayer.lean ====
/-
  A dense layer read at an index, at the ideal values.

  The product of an m×k matrix A with a k×n matrix B has, at (r, h), the entry Σ_l A(r, l)·B(l, h). At the ideal
  values, where no rounding and no order of summation is left, both the kernel's product into a zero accumulator and
  the host's product read exactly that sum. The four coordinate lemmas say where each operand is read: the contracted
  axis takes the contraction's one coordinate, the kept axis the matching coordinate of the result.

  The bias of the layer is a vector of n entries laid out as one row and repeated down the m rows: at (p, c) it reads
  the vector's entry c, whichever of the two spellings (a cast then a broadcast; two broadcasts in dimensions) wrote it.

  ELU is x where x > 0 and eˣ − 1 elsewhere. One spelling takes eˣ − 1 of x itself; the other multiplies by one the
  value e^y − 1 at y = 0 where x > 0, y = x elsewhere. On the branch that is read (x ≤ 0) y is x, so the two agree on
  every extended real.
-/
import Idealize.ShloMosaic.PureOps.Ideal.Laws
import Idealize.ShloMosaic.Lib.ValueIdx
import Idealize.ShloMosaic.Lib.ValueLayout
import Idealize.ShloMosaic.Lib.Pipeline.Value
import Idealize.ShloMosaic.Lib.IdealHost
import Idealize.ShloMosaic.Lib.KernelVsHost

noncomputable section

namespace Idealize.ShloMosaic.DenseLayer

open Idealize.ShloMosaic Idealize.ShloMosaic.ValueIdx

/-! ## The product of an m×k matrix with a k×n matrix -/

section Product
variable {m k n : ℕ}

/-- The dimension numbers `[1] × [0]`, kept axes `[0]` and `[1]`, no batch axis. -/
abbrev dims (w : DotDims.WF ⟨2, ![m, k]⟩ ⟨2, ![k, n]⟩ ⟨2, ![m, n]⟩ [1] [0] [0] [1] [] []) :
    DotDims ⟨2, ![m, k]⟩ ⟨2, ![k, n]⟩ ⟨2, ![m, n]⟩ := ⟨[1], [0], [0], [1], [], [], w⟩

/-- The left operand's kept axis reads the result's first coordinate. -/
theorem lhs_0 (w : DotDims.WF ⟨2, ![m, k]⟩ ⟨2, ![k, n]⟩ ⟨2, ![m, n]⟩ [1] [0] [0] [1] [] [])
    (j : (⟨2, ![m, n]⟩ : Shape).Idx) (q : (dims w).contr.Idx) :
    ((dims w).lhsIdx j q 0).val = (j 0).val := by
  unfold DotDims.lhsIdx
  rw [dif_neg (show ¬(0 : Fin 2) ∈ (dims w).lhsBatch from List.not_mem_nil),
    dif_pos (show (0 : Fin 2) ∈ (dims w).lhsNonContracting from List.mem_singleton.mpr rfl)]
  rfl

/-- The left operand's contracted axis reads the contraction's coordinate. -/
theorem lhs_1 (w : DotDims.WF ⟨2, ![m, k]⟩ ⟨2, ![k, n]⟩ ⟨2, ![m, n]⟩ [1] [0] [0] [1] [] [])
    (j : (⟨2, ![m, n]⟩ : Shape).Idx) (q : (dims w).contr.Idx) :
    ((dims w).lhsIdx j q 1).val = (q ⟨0, Nat.one_pos⟩).val :=
  (dims w).lhsIdx_val_of_single rfl j q

/-- The right operand's contracted axis reads the contraction's coordinate. -/
theorem rhs_0 (w : DotDims.WF ⟨2, ![m, k]⟩ ⟨2, ![k, n]⟩ ⟨2, ![m, n]⟩ [1] [0] [0] [1] [] [])
    (j : (⟨2, ![m, n]⟩ : Shape).Idx) (q : (dims w).contr.Idx) :
    ((dims w).rhsIdx j q 0).val = (q ⟨0, Nat.one_pos⟩).val :=
  (dims w).rhsIdx_val_of_single rfl j q

/-- The right operand's kept axis reads the result's second coordinate. -/
theorem rhs_1 (w : DotDims.WF ⟨2, ![m, k]⟩ ⟨2, ![k, n]⟩ ⟨2, ![m, n]⟩ [1] [0] [0] [1] [] [])
    (j : (⟨2, ![m, n]⟩ : Shape).Idx) (q : (dims w).contr.Idx) :
    ((dims w).rhsIdx j q 1).val = (j 1).val := by
  unfold DotDims.rhsIdx
  rw [dif_neg (show ¬(1 : Fin 2) ∈ (dims w).rhsBatch from List.not_mem_nil),
    dif_pos (show (1 : Fin 2) ∈ (dims w).rhsNonContracting from List.mem_singleton.mpr rfl)]
  rfl

/-- The contraction's sum, re-indexed by the contracted coordinate: the left operand is read along row `r`, the right
    one down column `h`. -/
theorem sum_contr (w : DotDims.WF ⟨2, ![m, k]⟩ ⟨2, ![k, n]⟩ ⟨2, ![m, n]⟩ [1] [0] [0] [1] [] [])
    (A : (⟨2, ![m, k]⟩ : Shape).Idx → EReal) (B : (⟨2, ![k, n]⟩ : Shape).Idx → EReal) (r : Fin m) (h : Fin n) :
    ∑ q : (dims w).contr.Idx, A ((dims w).lhsIdx (ix2 r h) q) * B ((dims w).rhsIdx (ix2 r h) q)
      = ∑ l : Fin k, A (ix2 r l) * B (ix2 l h) := by
  rw [← Equiv.sum_comp (contrEquiv1 (dims w) k rfl rfl).symm]
  refine Finset.sum_congr rfl fun l _ => ?_
  have c2 := contrEquiv1_symm_val (dims w) k rfl rfl l
  have l2 : (dims w).lhsIdx (ix2 r h) ((contrEquiv1 (dims w) k rfl rfl).symm l) = ix2 r l := by
    funext ax; apply Fin.ext
    match ax with
    | ⟨0, _⟩ => exact lhs_0 w _ _
    | ⟨1, _⟩ => exact (lhs_1 w _ _).trans c2
  have r2 : (dims w).rhsIdx (ix2 r h) ((contrEquiv1 (dims w) k rfl rfl).symm l) = ix2 l h := by
    funext ax; apply Fin.ext
    match ax with
    | ⟨0, _⟩ => exact (rhs_0 w _ _).trans c2
    | ⟨1, _⟩ => exact rhs_1 w _ _
  rw [l2, r2]

/-- A kernel's product of an m×k matrix with a k×n matrix into the zero accumulator, read at `(r, h)`. -/
theorem matmul_rows_apply {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (r : Fin m) (h : Fin n) :
    FloatOps.matmul (⟨[1], [0], [0], [1], [], [], w⟩ : DotDims _ _ _) prec A B
        (constant ⟨2, ![m, n]⟩ .f32 0x00000000#32) (ix2 r h)
      = ∑ l : Fin k, A (ix2 r l) * B (ix2 l h) := by
  rw [Ideal.matmul_constant_zero_apply]
  exact sum_contr w A B r h

/-- The host's product of an m×k matrix with a k×n matrix, read at `(r, h)`. -/
theorem dotGeneral_rows_apply {φ₁ φ₂ : FTy}
    (w : DotDims.WF ⟨2, ![m, k]⟩ ⟨2, ![k, n]⟩ ⟨2, ![m, n]⟩ [1] [0] [0] [1] [] [])
    (prec : Option ContractPrecision) (sched : HostSchedule) (A : FVec Ideal ⟨2, ![m, k]⟩ φ₁) (B : FVec Ideal ⟨2, ![k, n]⟩ φ₂)
    (r : Fin m) (h : Fin n) :
    FloatOps.dotGeneral (⟨[1], [0], [0], [1], [], [], w⟩ : DotDims _ _ _) prec sched A B (ix2 r h)
      = ∑ l : Fin k, A (ix2 r l) * B (ix2 l h) := by
  rw [Ideal.dotGeneral_apply]
  exact sum_contr w A B r h

end Product

/-! ## The bias row -/

section Bias
variable {α : Type} {a b : ℕ}

/-- A vector `[b]` cast to one row `[1, b]` and broadcast down `a` rows reads, at `(p, c)`, the vector at `c`. -/
theorem bias_cast_apply (v : (⟨1, ![b]⟩ : Shape).Idx → α) (h1 : (⟨1, ![b]⟩ : Shape).ShapeCasts ⟨2, ![1, b]⟩)
    (hb : (⟨2, ![1, b]⟩ : Shape).Broadcasts ⟨2, ![a, b]⟩) (p : Fin a) (c : Fin b) :
    broadcastTo ⟨2, ![a, b]⟩ (shapeCast ⟨2, ![1, b]⟩ v h1) hb (ix2 p c) = v (ix1 c) := by
  rw [broadcastTo_1b_ab_apply, shapeCast_a_1a_apply]

/-- A vector `[b]` laid along axis 1 of a one-row matrix `[1, b]` reads, at `(u, c)`, the vector at `c`. -/
theorem broadcastInDim_vec_row_apply (h : (⟨1, ![b]⟩ : Shape).BroadcastsInDim ⟨2, ![1, b]⟩ ![1])
    (v : (⟨1, ![b]⟩ : Shape).Idx → α) (u : Fin 1) (c : Fin b) :
    broadcastInDim ⟨2, ![1, b]⟩ ![1] h v (ix2 u c) = v (ix1 c) := by
  refine broadcastInDim_apply ![1] h v (ix2 u c) (ix1 c) fun ax => ?_
  match ax with
  | ⟨0, _⟩ =>
    show c.val = if b = 1 then 0 else c.val
    split
    · have := c.isLt; omega
    · rfl

/-- A vector `[b]` laid along axis 1 of a one-row matrix and that row repeated down `a` rows reads, at `(p, c)`,
    the vector at `c`. -/
theorem bias_inDim_apply (h1 : (⟨1, ![b]⟩ : Shape).BroadcastsInDim ⟨2, ![1, b]⟩ ![1])
    (h2 : (⟨2, ![1, b]⟩ : Shape).BroadcastsInDim ⟨2, ![a, b]⟩ ![0, 1])
    (v : (⟨1, ![b]⟩ : Shape).Idx → α) (p : Fin a) (c : Fin b) :
    broadcastInDim ⟨2, ![a, b]⟩ ![0, 1] h2 (broadcastInDim ⟨2, ![1, b]⟩ ![1] h1 v) (ix2 p c) = v (ix1 c) := by
  rw [broadcastInDim_oneRow_apply, broadcastInDim_vec_row_apply]

end Bias

/-! ## ELU on the extended reals -/

/-- ELU: `x` where `x > 0`, `eˣ − 1` elsewhere. -/
def elu (x : EReal) : EReal := Scalar.select (Ideal.cmp .ogt x 0) x (Ideal.exp x - 1)

/-- The spelling that multiplies by one the value `e^y − 1` at `y = 0` where `x > 0`, `y = x` elsewhere, is ELU. -/
theorem elu_guarded (x : EReal) :
    Scalar.select (Ideal.cmp .ogt x 0) x (1 * (Ideal.exp (Scalar.select (Ideal.cmp .ogt x 0) 0 x) - 1)) = elu x := by
  unfold elu
  by_cases hc : Ideal.cmp .ogt x 0 = 1#1
  · rw [hc, select_one, select_one]
  · rw [eq_zero_of_ne_one hc, select_zero, select_zero, select_zero, one_mul]

/-! ## The two spellings of ELU on arrays, read at an index -/

section Spellings
variable {s : Shape}

/-- The kernel's spelling, `x` where `x > 0` else `exp x − 1` over splat constants, read at an index. -/
theorem elu_kernel_apply (Y : FVec Ideal s .f32) (j : s.Idx) :
    select (cmpf .ogt Y (broadcast s (FloatOps.ofBits (F := Ideal) .f32 0x00000000#32))) Y
        (subf (exp Y) (broadcast s (FloatOps.ofBits (F := Ideal) .f32 0x3F800000#32))) j = elu (Y j) := by
  show Scalar.select (Ideal.cmp .ogt (Y j) (Ideal.ofBits .f32 0x00000000#32)) (Y j)
      (Ideal.exp (Y j) - Ideal.ofBits .f32 0x3F800000#32) = _
  rw [Ideal.ofBits_zero_f32, Ideal.ofBits_one_f32]
  rfl

/-- The host's spelling, `x` where `x > 0` else `1 · expm1 (0 where x > 0 else x)` over broadcast scalars, read at an
    index. -/
theorem elu_host_apply (hb : (⟨0, ![]⟩ : Shape).BroadcastsInDim s ![]) (Y : FVec Ideal s .f32) (j : s.Idx) :
    select (cmpf .ogt Y (broadcastInDim s ![] hb (constant (F := Ideal) ⟨0, ![]⟩ .f32 0x00000000#32))) Y
        (mulf (broadcastInDim s ![] hb (constant (F := Ideal) ⟨0, ![]⟩ .f32 0x3F800000#32))
          (Host.expm1 (select (cmpf .ogt Y (broadcastInDim s ![] hb (constant (F := Ideal) ⟨0, ![]⟩ .f32 0x00000000#32)))
            (broadcastInDim s ![] hb (id (constant (F := Ideal) ⟨0, ![]⟩ .f32 0x00000000#32))) Y))) j = elu (Y j) := by
  show Scalar.select (Ideal.cmp .ogt (Y j) (Ideal.ofBits .f32 0x00000000#32)) (Y j)
      (Ideal.ofBits .f32 0x3F800000#32 * (Ideal.exp (Scalar.select (Ideal.cmp .ogt (Y j) (Ideal.ofBits .f32 0x00000000#32))
        (Ideal.ofBits .f32 0x00000000#32) (Y j)) - 1)) = _
  rw [Ideal.ofBits_zero_f32, Ideal.ofBits_one_f32]
  exact elu_guarded (Y j)

end Spellings

end Idealize.ShloMosaic.DenseLayer

end
-- ==== Proof.Layer.lean ====
/-
  One layer of the network, entry by entry, on the extended reals.

  A dense layer multiplies an m×k matrix by a k×n matrix: entry (r, h) of the product is the sum over the contracted
  coordinate l of x(r, l)·w(l, h). A bias row b of n entries is added to every row of an m×n matrix: entry (r, h)
  becomes x(r, h) + b(h). The rectifier keeps the larger of an entry and the float word zero.

  At the ideal values a change of float format is the identity and a product into the zero accumulator has no
  rounding and no order of summation, so the kernel's block product (operands narrowed to bf16 first) and the
  host's product both read the same sum.
-/
import Idealize.ShloMosaic.PureOps.Ideal.Laws
import Idealize.ShloMosaic.Lib.ValueIdx
import Idealize.ShloMosaic.Lib.ValueLayout
import proofs.«152441_j7919919694018_1_alg».proof.Proof.LibDenseLayer

noncomputable section

open scoped BigOperators

namespace Cert.Gcn

open Idealize.ShloMosaic Idealize.ShloMosaic.ValueIdx

/-- The first coordinate of a rank-2 index, as a number below the first extent. -/
abbrev row {m n : ℕ} (i : (⟨2, ![m, n]⟩ : Shape).Idx) : Fin m := ⟨(i 0).val, idx2_lt0 i⟩
/-- The second coordinate of a rank-2 index, as a number below the second extent. -/
abbrev col {m n : ℕ} (i : (⟨2, ![m, n]⟩ : Shape).Idx) : Fin n := ⟨(i 1).val, idx2_lt1 i⟩

/-- The product of an m×k matrix and a k×n matrix: entry (r, h) is the sum over l of x(r, l)·w(l, h). -/
def dense {m k n : ℕ} (x : (⟨2, ![m, k]⟩ : Shape).Idx → EReal) (w : (⟨2, ![k, n]⟩ : Shape).Idx → EReal) :
    (⟨2, ![m, n]⟩ : Shape).Idx → EReal :=
  fun i => ∑ l : Fin k, x (ix2 (row i) l) * w (ix2 l (col i))

/-- A row of n entries added to every row of an m×n matrix. -/
def addRow {m n : ℕ} (x : (⟨2, ![m, n]⟩ : Shape).Idx → EReal) (b : (⟨1, ![n]⟩ : Shape).Idx → EReal) :
    (⟨2, ![m, n]⟩ : Shape).Idx → EReal :=
  fun i => x i + b (ix1 (col i))

/-- A one-row matrix added to every row of an m×n matrix. -/
def addRow1 {m n : ℕ} (x : (⟨2, ![m, n]⟩ : Shape).Idx → EReal) (b : (⟨2, ![1, n]⟩ : Shape).Idx → EReal) :
    (⟨2, ![m, n]⟩ : Shape).Idx → EReal :=
  fun i => x i + b (ix2 (0 : Fin 1) (col i))

/-- The rectifier: the larger of an entry and the float word zero. -/
def relu {s : Shape} (x : s.Idx → EReal) : s.Idx → EReal :=
  fun i => max (x i) (Ideal.ofBits .f32 0x00000000#32)

theorem dense_apply {m k n : ℕ} (x : (⟨2, ![m, k]⟩ : Shape).Idx → EReal) (w : (⟨2, ![k, n]⟩ : Shape).Idx → EReal)
    (r : Fin m) (h : Fin n) : dense x w (ix2 r h) = ∑ l : Fin k, x (ix2 r l) * w (ix2 l h) := rfl

theorem addRow_apply {m n : ℕ} (x : (⟨2, ![m, n]⟩ : Shape).Idx → EReal) (b : (⟨1, ![n]⟩ : Shape).Idx → EReal)
    (r : Fin m) (h : Fin n) : addRow x b (ix2 r h) = x (ix2 r h) + b (ix1 h) := rfl

theorem addRow1_apply {m n : ℕ} (x : (⟨2, ![m, n]⟩ : Shape).Idx → EReal) (b : (⟨2, ![1, n]⟩ : Shape).Idx → EReal)
    (r : Fin m) (h : Fin n) : addRow1 x b (ix2 r h) = x (ix2 r h) + b (ix2 (0 : Fin 1) h) := rfl

theorem relu_apply {s : Shape} (x : s.Idx → EReal) (i : s.Idx) :
    relu x i = max (x i) (Ideal.ofBits .f32 0x00000000#32) := rfl

/-- A vector laid out as one row and added to every row is the vector added to every row. -/
theorem addRow1_cast {m n : ℕ} (x : (⟨2, ![m, n]⟩ : Shape).Idx → EReal) (a : (⟨1, ![n]⟩ : Shape).Idx → EReal)
    (h : (⟨1, ![n]⟩ : Shape).ShapeCasts ⟨2, ![1, n]⟩) : addRow1 x (shapeCast ⟨2, ![1, n]⟩ a h) = addRow x a := by
  funext i
  show x i + shapeCast ⟨2, ![1, n]⟩ a h (ix2 (0 : Fin 1) (col i)) = x i + a (ix1 (col i))
  rw [shapeCast_a_1a_apply]

/-- The host's product of an m×k by a k×n matrix is `dense`. -/
theorem dotGeneral_eq_dense {m k n : ℕ}
    (wf : DotDims.WF ⟨2, ![m, k]⟩ ⟨2, ![k, n]⟩ ⟨2, ![m, n]⟩ [1] [0] [0] [1] [] [])
    (prec : Option ContractPrecision) (sched : HostSchedule)
    (x : FVec Ideal ⟨2, ![m, k]⟩ .f32) (w : FVec Ideal ⟨2, ![k, n]⟩ .f32) :
    FloatOps.dotGeneral (⟨[1], [0], [0], [1], [], [], wf⟩ : DotDims _ _ _) prec sched x w = dense x w := by
  funext i
  obtain ⟨r, h, rfl⟩ : ∃ (r : Fin m) (h : Fin n), i = ix2 r h := ⟨i 0, i 1, eq_ix2 i⟩
  exact DenseLayer.dotGeneral_rows_apply wf prec sched x w r h

/-- A kernel's product of a block of rows with the whole k×n matrix into the zero accumulator, the operands
    narrowed to another float format first, read at an entry of the block. -/
theorem matmul_trunc_apply {m k n : ℕ} {ψ : FTy}
    (wf : DotDims.WF ⟨2, ![m, k]⟩ ⟨2, ![k, n]⟩ ⟨2, ![m, n]⟩ [1] [0] [0] [1] [] [])
    (prec : Option ContractPrecision) (hb : ψ.bits < FTy.f32.bits)
    (x : FVec Ideal ⟨2, ![m, k]⟩ .f32) (w : FVec Ideal ⟨2, ![k, n]⟩ .f32) (r : Fin m) (h : Fin n) :
    FloatOps.matmul (⟨[1], [0], [0], [1], [], [], wf⟩ : DotDims _ _ _) prec (truncf ψ x hb) (truncf ψ w hb)
        (constant ⟨2, ![m, n]⟩ .f32 0x00000000#32) (ix2 r h)
      = ∑ l : Fin k, x (ix2 r l) * w (ix2 l h) :=
  DenseLayer.matmul_rows_apply wf prec (truncf ψ x hb) (truncf ψ w hb) r h

end Cert.Gcn

end
-- ==== Proof.KNet.lean ====
/-
  The whole network as one function: three rounds of a dense layer, message passing over the edges and a bias row,
  with the rectifier after the first two rounds.
-/
import proofs.«152441_j7919919694018_1_alg».proof.Proof.KAgg
import proofs.«152441_j7919919694018_1_alg».proof.Proof.Layer

noncomputable section

namespace Cert.KernelIdeal.Gcn

open Cert.KernelIdeal Cert.Gcn Idealize.ShloMosaic

variable [Facts₀]

/-- One round without its rectifier: the features times the weights, passed along the edges `(s, d)` with weights
    `n`, plus the bias row. -/
def round {k : ℕ} (s d : IVec S3300000 32) (n : FVec Ideal S3300000 .f32)
    (x : (⟨2, ![100000, k]⟩ : Shape).Idx → EReal) (w : (⟨2, ![k, 64]⟩ : Shape).Idx → EReal)
    (b : (⟨1, ![64]⟩ : Shape).Idx → EReal) : (⟨2, ![100000, 64]⟩ : Shape).Idx → EReal :=
  addRow (agg (F := Ideal) (dense x w) s d n) b

/-- The three rounds: rectified after the first and the second, not after the third. -/
def net (s d : IVec S3300000 32) (n : FVec Ideal S3300000 .f32)
    (x : (⟨2, ![100000, 128]⟩ : Shape).Idx → EReal) (w1 : (⟨2, ![128, 64]⟩ : Shape).Idx → EReal)
    (b1 : (⟨1, ![64]⟩ : Shape).Idx → EReal) (w2 : (⟨2, ![64, 64]⟩ : Shape).Idx → EReal)
    (b2 : (⟨1, ![64]⟩ : Shape).Idx → EReal) (w3 : (⟨2, ![64, 64]⟩ : Shape).Idx → EReal)
    (b3 : (⟨1, ![64]⟩ : Shape).Idx → EReal) : (⟨2, ![100000, 64]⟩ : Shape).Idx → EReal :=
  round s d n (relu (round s d n (relu (round s d n x w1 b1)) w2 b2)) w3 b3

end Cert.KernelIdeal.Gcn

end
-- ==== Proof.KRegion0.lean ====
/-
  The first dense layer's kernel region, as one function of the arrays it finds.

  The grid has 20 points. Point t stages rows 5000·t … 5000·t + 4999 of the node features (all 128 columns) and the
  whole 128×64 weight matrix, multiplies them into a zero accumulator and writes the 5000×64 product back as rows
  5000·t … of the result. Entry (5000·t + p, q) of the result is therefore Σ_l x(5000·t + p, l)·w(l, q): the blocks
  are the restrictions of the one product of the whole arrays, and the 20 blocks tile the 100000 rows.
-/
import proofs.«152441_j7919919694018_1_alg».proof.Proof.Gen.KernelIdeal.Frame
import proofs.«152441_j7919919694018_1_alg».proof.Proof.Layer
import Idealize.ShloMosaic.Lib.Pipeline.Value

set_option maxRecDepth 16384

noncomputable section

namespace Cert.KernelIdeal.Region0

open Cert.KernelIdeal Cert.KernelIdeal.Gen Cert.Gcn
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The block product at an entry: the sum over the contracted coordinate (the narrowing to bf16 is the identity on
    the extended reals). -/
theorem pay_apply (x0 : Vec Ideal S5000x128 .f32) (x1 : Vec Ideal S128x64 .f32) (p : Fin 5000) (q : Fin 64) :
    k0_pay1 x0 x1 (ix2 p q) = ∑ l : Fin 128, x0 (ix2 p l) * x1 (ix2 l q) := by
  unfold k0_pay1
  exact matmul_trunc_apply _ none _ x0 x1 p q

/-- The printed index maps over the grid: the row windows move with the point, the weights stay. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

theorem lt20 (t : Fin cfg0.N) : t.val < 20 := lt_of_lt_of_eq t.isLt N_0

/-- The features' block at point t, and the weights' block, as arrays of their literal shapes. -/
abbrev xblk (c : Dev nD) (t : Fin cfg0.N) : Vec Ideal S5000x128 .f32 := iblk0 V c 0 t
abbrev wblk (c : Dev nD) (t : Fin cfg0.N) : Vec Ideal S128x64 .f32 := iblk0 V c 1 t
abbrev xarr (c : Dev nD) : Vec Ideal S100000x128 .f32 := V c main_arg0
abbrev warr (c : Dev nD) : Vec Ideal S128x64 .f32 := V c main_arg2

/-- Row p of the features' block at point t is row 5000·t + p of the array. -/
theorem xblk_apply (c : Dev nD) (t : Fin cfg0.N) (p : Fin 5000) (l : Fin 128) :
    xblk V c t (ix2 p l) = xarr V c (ix2 ⟨5000 * t.val + p.val, by have := lt20 t; have := p.isLt; omega⟩ l) := by
  obtain ⟨e0, e1, -⟩ := idx_facts t
  show V c main_arg0 (((cfg0.win 0).blk t).view.emb (ix2 p l)) = V c main_arg0 _
  refine congrArg (V c main_arg0) ?_
  funext a; apply Fin.ext
  match a with
  | ⟨0, _⟩ => show win0_0.index t (0 : Fin 2) * 5000 + 1 * p.val = 5000 * t.val + p.val; omega
  | ⟨1, _⟩ => show win0_0.index t (1 : Fin 2) * 128 + 1 * l.val = l.val; omega

/-- The weights' block at every point is the whole array. -/
theorem wblk_apply (c : Dev nD) (t : Fin cfg0.N) (l : Fin 128) (q : Fin 64) :
    wblk V c t (ix2 l q) = warr V c (ix2 l q) := by
  obtain ⟨-, -, e2, e3, -⟩ := idx_facts t
  show V c main_arg2 (((cfg0.win 1).blk t).view.emb (ix2 l q)) = V c main_arg2 _
  refine congrArg (V c main_arg2) ?_
  funext a; apply Fin.ext
  match a with
  | ⟨0, _⟩ => show win0_1.index t (0 : Fin 2) * 128 + 1 * l.val = l.val; omega
  | ⟨1, _⟩ => show win0_1.index t (1 : Fin 2) * 64 + 1 * q.val = q.val; omega

/-- What point t writes back is block t of the product of the whole arrays. -/
theorem flushed_eq (c : Dev nD) (t : Fin cfg0.N) :
    (dat0 V c).flushed 2 t = ((cfg0.win 2).blk t).view.read (Elt Ideal) (dense (xarr V c) (warr V c)) := by
  show (cfg0.win 2).cut (grid0.coords t) ((dat0 V c).after 2 t) = _
  rw [after0_2]
  unfold out0_2
  rw [View.canon_unit_zero hz]
  simp only [View.ld_unit_zero (S := S5000x128) hz, View.ld_unit_zero (S := S128x64) hz]
  funext j
  obtain ⟨p, q, rfl⟩ : ∃ (p : Fin 5000) (q : Fin 64), j = ix2 p q := ⟨j 0, j 1, eq_ix2 j⟩
  obtain ⟨-, -, -, -, e4, e5⟩ := idx_facts t
  refine (pay_apply (xblk V c t) (wblk V c t) p q).trans ?_
  show _ = dense (xarr V c) (warr V c) (((cfg0.win 2).blk t).view.emb (ix2 p q))
  have he : ((cfg0.win 2).blk t).view.emb (ix2 p q)
      = ix2 (n0 := 100000) ⟨5000 * t.val + p.val, by have := lt20 t; have := p.isLt; omega⟩ q := by
    funext a; apply Fin.ext
    match a with
    | ⟨0, _⟩ => show win0_2.index t (0 : Fin 2) * 5000 + 1 * p.val = 5000 * t.val + p.val; omega
    | ⟨1, _⟩ => show win0_2.index t (1 : Fin 2) * 64 + 1 * q.val = q.val; omega
  rw [he, dense_apply]
  refine Finset.sum_congr rfl fun l _ => ?_
  rw [xblk_apply, wblk_apply]

/-- An index of the result is in point t's block iff each coordinate is in the block's range. -/
theorem mem_blk (t : Fin cfg0.N) (i : S100000x64.Idx) :
    i ∈ ((cfg0.win 2).blk t).view.set ↔ ∀ a : Fin 2, win0_2.index t a * S5000x64.size a ≤ (i a).val ∧ (i a).val < win0_2.index t a * S5000x64.size a + S5000x64.size a := by
  show i ∈ ((View.whole main_v32).slice (win0_2.rect t)).set ↔ _
  rw [View.set_slice_whole, Rect.mem_set_unit]
  exact Iff.rfl

/-- Every row of the result is in the block of the point its number divided by 5000 names. -/
theorem cover (i : S100000x64.Idx) : ∃ t : Fin cfg0.N, (cfg0.win 2).flush t = true ∧ i ∈ ((cfg0.win 2).blk t).view.set := by
  have hi0 : (i 0).val < 100000 := (i 0).isLt
  have hi1 : (i 1).val < 64 := (i 1).isLt
  let t : Fin cfg0.N := ⟨(i 0).val / 5000, by rw [show cfg0.N = 20 from N_0]; omega⟩
  obtain ⟨-, -, -, -, e4, e5⟩ := idx_facts t
  have e4' : win0_2.index t (0 : Fin 2) = (i 0).val / 5000 := e4
  refine ⟨t, flush0_2 t, ?_⟩
  rw [mem_blk]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 64 ≤ (i 1).val ∧ (i 1).val < win0_2.index t (1 : Fin 2) * 64 + 64; omega

/-- The result array after the region: the product of the features and the weights as the region finds them. -/
theorem final (c : Dev nD) : (dat0 V c).arrAt 2 cfg0.N = dense (xarr V c) (warr V c) :=
  (dat0 V c).arrAt_eq_of_cover 2 (dense (xarr V c) (warr V c)) (fun t _ => flushed_eq V c t) cover

end Cert.KernelIdeal.Region0

end
-- ==== Proof.KRegion1.lean ====
/-
  The first bias-and-rectifier kernel region, as one function of the arrays it finds.

  The grid has 20 points. Point t stages rows 5000·t … 5000·t + 4999 of the aggregated features (64 columns) and
  the bias laid out as one row, adds the row to every staged row, takes the larger of each entry and zero, and
  writes the block back as rows 5000·t … of the result. Entry (r, q) of the result is max(x(r, q) + b(0, q), 0).
-/
import proofs.«152441_j7919919694018_1_alg».proof.Proof.Gen.KernelIdeal.Frame
import proofs.«152441_j7919919694018_1_alg».proof.Proof.Layer
import Idealize.ShloMosaic.Lib.Pipeline.Value

set_option maxRecDepth 16384

noncomputable section

namespace Cert.KernelIdeal.Region1

open Cert.KernelIdeal Cert.KernelIdeal.Gen Cert.Gcn
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The body's value at an entry: the staged entry plus the bias row's entry of that column, or zero if larger. -/
theorem pay_apply (x0 : Vec Ideal S5000x64 .f32) (x1 : Vec Ideal S1x64 .f32) (p : Fin 5000) (q : Fin 64) :
    k1_pay1 x0 x1 (ix2 p q) = max (x0 (ix2 p q) + x1 (ix2 (0 : Fin 1) q)) (Ideal.ofBits .f32 0x00000000#32) := by
  unfold k1_pay1
  show max (shapeCast S5000x64 x0 shapeCasts_S5000x64_S5000x64 (ix2 p q)
      + broadcastTo S5000x64 (shapeCast S1x64 x1 shapeCasts_S1x64_S1x64) broadcasts_S1x64_S5000x64 (ix2 p q)) _ = _
  rw [shapeCast_self, shapeCast_self, broadcastTo_1b_ab_apply]
  rfl

/-- The printed index maps over the grid: the row windows move with the point, the bias stays. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

theorem lt20 (t : Fin cfg1.N) : t.val < 20 := lt_of_lt_of_eq t.isLt N_1

abbrev xblk (c : Dev nD) (t : Fin cfg1.N) : Vec Ideal S5000x64 .f32 := iblk1 V c 0 t
abbrev bblk (c : Dev nD) (t : Fin cfg1.N) : Vec Ideal S1x64 .f32 := iblk1 V c 1 t
abbrev xarr (c : Dev nD) : Vec Ideal S100000x64 .f32 := V c main_v45
abbrev barr (c : Dev nD) : Vec Ideal S1x64 .f32 := V c main_v46

/-- Row p of the staged block at point t is row 5000·t + p of the array. -/
theorem xblk_apply (c : Dev nD) (t : Fin cfg1.N) (p : Fin 5000) (q : Fin 64) :
    xblk V c t (ix2 p q) = xarr V c (ix2 ⟨5000 * t.val + p.val, by have := lt20 t; have := p.isLt; omega⟩ q) := by
  obtain ⟨e0, e1, -⟩ := idx_facts t
  show V c main_v45 (((cfg1.win 0).blk t).view.emb (ix2 p q)) = V c main_v45 _
  refine congrArg (V c main_v45) ?_
  funext a; apply Fin.ext
  match a with
  | ⟨0, _⟩ => show win1_0.index t (0 : Fin 2) * 5000 + 1 * p.val = 5000 * t.val + p.val; omega
  | ⟨1, _⟩ => show win1_0.index t (1 : Fin 2) * 64 + 1 * q.val = q.val; omega

/-- The bias row's block at every point is the whole row. -/
theorem bblk_apply (c : Dev nD) (t : Fin cfg1.N) (u : Fin 1) (q : Fin 64) :
    bblk V c t (ix2 u q) = barr V c (ix2 u q) := by
  obtain ⟨-, -, e2, e3, -⟩ := idx_facts t
  show V c main_v46 (((cfg1.win 1).blk t).view.emb (ix2 u q)) = V c main_v46 _
  refine congrArg (V c main_v46) ?_
  funext a; apply Fin.ext
  match a with
  | ⟨0, _⟩ => show win1_1.index t (0 : Fin 2) * 1 + 1 * u.val = u.val; omega
  | ⟨1, _⟩ => show win1_1.index t (1 : Fin 2) * 64 + 1 * q.val = q.val; omega

/-- What point t writes back is block t of the rectified sum of the whole arrays. -/
theorem flushed_eq (c : Dev nD) (t : Fin cfg1.N) :
    (dat1 V c).flushed 2 t = ((cfg1.win 2).blk t).view.read (Elt Ideal) (relu (addRow1 (xarr V c) (barr V c))) := by
  show (cfg1.win 2).cut (grid1.coords t) ((dat1 V c).after 2 t) = _
  rw [after1_2]
  unfold out1_2
  rw [View.canon_unit_zero hz]
  simp only [View.ld_unit_zero (S := S5000x64) hz, View.ld_unit_zero (S := S1x64) hz]
  funext j
  obtain ⟨p, q, rfl⟩ : ∃ (p : Fin 5000) (q : Fin 64), j = ix2 p q := ⟨j 0, j 1, eq_ix2 j⟩
  obtain ⟨-, -, -, -, e4, e5⟩ := idx_facts t
  refine (pay_apply (xblk V c t) (bblk V c t) p q).trans ?_
  show _ = relu (addRow1 (xarr V c) (barr V c)) (((cfg1.win 2).blk t).view.emb (ix2 p q))
  have he : ((cfg1.win 2).blk t).view.emb (ix2 p q)
      = ix2 (n0 := 100000) ⟨5000 * t.val + p.val, by have := lt20 t; have := p.isLt; omega⟩ q := by
    funext a; apply Fin.ext
    match a with
    | ⟨0, _⟩ => show win1_2.index t (0 : Fin 2) * 5000 + 1 * p.val = 5000 * t.val + p.val; omega
    | ⟨1, _⟩ => show win1_2.index t (1 : Fin 2) * 64 + 1 * q.val = q.val; omega
  rw [he, relu_apply, addRow1_apply, xblk_apply, bblk_apply]

/-- An index of the result is in point t's block iff each coordinate is in the block's range. -/
theorem mem_blk (t : Fin cfg1.N) (i : S100000x64.Idx) :
    i ∈ ((cfg1.win 2).blk t).view.set ↔ ∀ a : Fin 2, win1_2.index t a * S5000x64.size a ≤ (i a).val ∧ (i a).val < win1_2.index t a * S5000x64.size a + S5000x64.size a := by
  show i ∈ ((View.whole main_v47).slice (win1_2.rect t)).set ↔ _
  rw [View.set_slice_whole, Rect.mem_set_unit]
  exact Iff.rfl

/-- Every row of the result is in the block of the point its number divided by 5000 names. -/
theorem cover (i : S100000x64.Idx) : ∃ t : Fin cfg1.N, (cfg1.win 2).flush t = true ∧ i ∈ ((cfg1.win 2).blk t).view.set := by
  have hi0 : (i 0).val < 100000 := (i 0).isLt
  have hi1 : (i 1).val < 64 := (i 1).isLt
  let t : Fin cfg1.N := ⟨(i 0).val / 5000, by rw [show cfg1.N = 20 from N_1]; omega⟩
  obtain ⟨-, -, -, -, e4, e5⟩ := idx_facts t
  have e4' : win1_2.index t (0 : Fin 2) = (i 0).val / 5000 := e4
  refine ⟨t, flush1_2 t, ?_⟩
  rw [mem_blk]
  intro a
  match a with
  | ⟨0, _⟩ => show win1_2.index t (0 : Fin 2) * 5000 ≤ (i 0).val ∧ (i 0).val < win1_2.index t (0 : Fin 2) * 5000 + 5000; omega
  | ⟨1, _⟩ => show win1_2.index t (1 : Fin 2) * 64 ≤ (i 1).val ∧ (i 1).val < win1_2.index t (1 : Fin 2) * 64 + 64; omega

/-- The result array after the region: the bias row added to the features as the region finds them, rectified. -/
theorem final (c : Dev nD) : (dat1 V c).arrAt 2 cfg1.N = relu (addRow1 (xarr V c) (barr V c)) :=
  (dat1 V c).arrAt_eq_of_cover 2 (relu (addRow1 (xarr V c) (barr V c))) (fun t _ => flushed_eq V c t) cover

end Cert.KernelIdeal.Region1

end
-- ==== Proof.KRegion2.lean ====
/-
  The second dense layer's kernel region, as one function of the arrays it finds.

  The grid has 20 points. Point t stages rows 5000·t … 5000·t + 4999 of the rectified first-layer features (64 columns) and the whole
  64×64 weight matrix, multiplies them into a zero accumulator and writes the 5000×64 product back as rows 5000·t …
  of the result. Entry (5000·t + p, q) of the result is therefore Σ_l x(5000·t + p, l)·w(l, q): the blocks are the
  restrictions of the one product of the whole arrays, and the 20 blocks tile the 100000 rows.
-/
import proofs.«152441_j7919919694018_1_alg».proof.Proof.Gen.KernelIdeal.Frame
import proofs.«152441_j7919919694018_1_alg».proof.Proof.Layer
import Idealize.ShloMosaic.Lib.Pipeline.Value

set_option maxRecDepth 16384

noncomputable section

namespace Cert.KernelIdeal.Region2

open Cert.KernelIdeal Cert.KernelIdeal.Gen Cert.Gcn
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The block product at an entry: the sum over the contracted coordinate (the cast to the same shape and the
    narrowing to bf16 are the identity on the extended reals). -/
theorem pay_apply (x0 : Vec Ideal S5000x64 .f32) (x1 : Vec Ideal S64x64 .f32) (p : Fin 5000) (q : Fin 64) :
    k2_pay1 x0 x1 (ix2 p q) = ∑ l : Fin 64, x0 (ix2 p l) * x1 (ix2 l q) := by
  unfold k2_pay1
  refine (matmul_trunc_apply dot_S5000x64_S64x64_S5000x64_1_0_0_1_n_n_wf none bitsLt_bf16_f32
    (shapeCast S5000x64 x0 shapeCasts_S5000x64_S5000x64) x1 p q).trans ?_
  rw [shapeCast_self]

/-- The printed index maps over the grid: the row windows move with the point, the weights stay. -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

theorem lt20 (t : Fin cfg2.N) : t.val < 20 := lt_of_lt_of_eq t.isLt N_2

/-- The features' block at point t, and the weights' block, as arrays of their literal shapes. -/
abbrev xblk (c : Dev nD) (t : Fin cfg2.N) : Vec Ideal S5000x64 .f32 := iblk2 V c 0 t
abbrev wblk (c : Dev nD) (t : Fin cfg2.N) : Vec Ideal S64x64 .f32 := iblk2 V c 1 t
abbrev xarr (c : Dev nD) : Vec Ideal S100000x64 .f32 := V c main_v47
abbrev warr (c : Dev nD) : Vec Ideal S64x64 .f32 := V c main_arg4

/-- Row p of the features' block at point t is row 5000·t + p of the array. -/
theorem xblk_apply (c : Dev nD) (t : Fin cfg2.N) (p : Fin 5000) (l : Fin 64) :
    xblk V c t (ix2 p l) = xarr V c (ix2 ⟨5000 * t.val + p.val, by have := lt20 t; have := p.isLt; omega⟩ l) := by
  obtain ⟨e0, e1, -⟩ := idx_facts t
  show V c main_v47 (((cfg2.win 0).blk t).view.emb (ix2 p l)) = V c main_v47 _
  refine congrArg (V c main_v47) ?_
  funext a; apply Fin.ext
  match a with
  | ⟨0, _⟩ => show win2_0.index t (0 : Fin 2) * 5000 + 1 * p.val = 5000 * t.val + p.val; omega
  | ⟨1, _⟩ => show win2_0.index t (1 : Fin 2) * 64 + 1 * l.val = l.val; omega

/-- The weights' block at every point is the whole array. -/
theorem wblk_apply (c : Dev nD) (t : Fin cfg2.N) (l : Fin 64) (q : Fin 64) :
    wblk V c t (ix2 l q) = warr V c (ix2 l q) := by
  obtain ⟨-, -, e2, e3, -⟩ := idx_facts t
  show V c main_arg4 (((cfg2.win 1).blk t).view.emb (ix2 l q)) = V c main_arg4 _
  refine congrArg (V c main_arg4) ?_
  funext a; apply Fin.ext
  match a with
  | ⟨0, _⟩ => show win2_1.index t (0 : Fin 2) * 64 + 1 * l.val = l.val; omega
  | ⟨1, _⟩ => show win2_1.index t (1 : Fin 2) * 64 + 1 * q.val = q.val; omega

/-- What point t writes back is block t of the product of the whole arrays. -/
theorem flushed_eq (c : Dev nD) (t : Fin cfg2.N) :
    (dat2 V c).flushed 2 t = ((cfg2.win 2).blk t).view.read (Elt Ideal) (dense (xarr V c) (warr V c)) := by
  show (cfg2.win 2).cut (grid2.coords t) ((dat2 V c).after 2 t) = _
  rw [after2_2]
  unfold out2_2
  rw [View.canon_unit_zero hz]
  simp only [View.ld_unit_zero (S := S5000x64) hz, View.ld_unit_zero (S := S64x64) hz]
  funext j
  obtain ⟨p, q, rfl⟩ : ∃ (p : Fin 5000) (q : Fin 64), j = ix2 p q := ⟨j 0, j 1, eq_ix2 j⟩
  obtain ⟨-, -, -, -, e4, e5⟩ := idx_facts t
  refine (pay_apply (xblk V c t) (wblk V c t) p q).trans ?_
  show _ = dense (xarr V c) (warr V c) (((cfg2.win 2).blk t).view.emb (ix2 p q))
  have he : ((cfg2.win 2).blk t).view.emb (ix2 p q)
      = ix2 (n0 := 100000) ⟨5000 * t.val + p.val, by have := lt20 t; have := p.isLt; omega⟩ q := by
    funext a; apply Fin.ext
    match a with
    | ⟨0, _⟩ => show win2_2.index t (0 : Fin 2) * 5000 + 1 * p.val = 5000 * t.val + p.val; omega
    | ⟨1, _⟩ => show win2_2.index t (1 : Fin 2) * 64 + 1 * q.val = q.val; omega
  rw [he, dense_apply]
  refine Finset.sum_congr rfl fun l _ => ?_
  rw [xblk_apply, wblk_apply]

/-- An index of the result is in point t's block iff each coordinate is in the block's range. -/
theorem mem_blk (t : Fin cfg2.N) (i : S100000x64.Idx) :
    i ∈ ((cfg2.win 2).blk t).view.set ↔ ∀ a : Fin 2, win2_2.index t a * S5000x64.size a ≤ (i a).val ∧ (i a).val < win2_2.index t a * S5000x64.size a + S5000x64.size a := by
  show i ∈ ((View.whole main_v48).slice (win2_2.rect t)).set ↔ _
  rw [View.set_slice_whole, Rect.mem_set_unit]
  exact Iff.rfl

/-- Every row of the result is in the block of the point its number divided by 5000 names. -/
theorem cover (i : S100000x64.Idx) : ∃ t : Fin cfg2.N, (cfg2.win 2).flush t = true ∧ i ∈ ((cfg2.win 2).blk t).view.set := by
  have hi0 : (i 0).val < 100000 := (i 0).isLt
  have hi1 : (i 1).val < 64 := (i 1).isLt
  let t : Fin cfg2.N := ⟨(i 0).val / 5000, by rw [show cfg2.N = 20 from N_2]; omega⟩
  obtain ⟨-, -, -, -, e4, e5⟩ := idx_facts t
  have e4' : win2_2.index t (0 : Fin 2) = (i 0).val / 5000 := e4
  refine ⟨t, flush2_2 t, ?_⟩
  rw [mem_blk]
  intro a
  match a with
  | ⟨0, _⟩ => show win2_2.index t (0 : Fin 2) * 5000 ≤ (i 0).val ∧ (i 0).val < win2_2.index t (0 : Fin 2) * 5000 + 5000; omega
  | ⟨1, _⟩ => show win2_2.index t (1 : Fin 2) * 64 ≤ (i 1).val ∧ (i 1).val < win2_2.index t (1 : Fin 2) * 64 + 64; omega

/-- The result array after the region: the product of the features and the weights as the region finds them. -/
theorem final (c : Dev nD) : (dat2 V c).arrAt 2 cfg2.N = dense (xarr V c) (warr V c) :=
  (dat2 V c).arrAt_eq_of_cover 2 (dense (xarr V c) (warr V c)) (fun t _ => flushed_eq V c t) cover

end Cert.KernelIdeal.Region2

end
-- ==== Proof.KRegion3.lean ====
/-
  The second bias-and-rectifier kernel region, as one function of the arrays it finds.

  The grid has 20 points. Point t stages rows 5000·t … 5000·t + 4999 of the aggregated features (64 columns) and
  the bias laid out as one row, adds the row to every staged row, takes the larger of each entry and zero, and
  writes the block back as rows 5000·t … of the result. Entry (r, q) of the result is max(x(r, q) + b(0, q), 0).
-/
import proofs.«152441_j7919919694018_1_alg».proof.Proof.Gen.KernelIdeal.Frame
import proofs.«152441_j7919919694018_1_alg».proof.Proof.Layer
import Idealize.ShloMosaic.Lib.Pipeline.Value

set_option maxRecDepth 16384

noncomputable section

namespace Cert.KernelIdeal.Region3

open Cert.KernelIdeal Cert.KernelIdeal.Gen Cert.Gcn
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The body's value at an entry: the staged entry plus the bias row's entry of that column, or zero if larger. -/
theorem pay_apply (x0 : Vec Ideal S5000x64 .f32) (x1 : Vec Ideal S1x64 .f32) (p : Fin 5000) (q : Fin 64) :
    k3_pay1 x0 x1 (ix2 p q) = max (x0 (ix2 p q) + x1 (ix2 (0 : Fin 1) q)) (Ideal.ofBits .f32 0x00000000#32) := by
  unfold k3_pay1
  show max (shapeCast S5000x64 x0 shapeCasts_S5000x64_S5000x64 (ix2 p q)
      + broadcastTo S5000x64 (shapeCast S1x64 x1 shapeCasts_S1x64_S1x64) broadcasts_S1x64_S5000x64 (ix2 p q)) _ = _
  rw [shapeCast_self, shapeCast_self, broadcastTo_1b_ab_apply]
  rfl

/-- The printed index maps over the grid: the row windows move with the point, the bias stays. -/
theorem idx_facts : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

theorem lt20 (t : Fin cfg3.N) : t.val < 20 := lt_of_lt_of_eq t.isLt N_3

abbrev xblk (c : Dev nD) (t : Fin cfg3.N) : Vec Ideal S5000x64 .f32 := iblk3 V c 0 t
abbrev bblk (c : Dev nD) (t : Fin cfg3.N) : Vec Ideal S1x64 .f32 := iblk3 V c 1 t
abbrev xarr (c : Dev nD) : Vec Ideal S100000x64 .f32 := V c main_v61
abbrev barr (c : Dev nD) : Vec Ideal S1x64 .f32 := V c main_v62

/-- Row p of the staged block at point t is row 5000·t + p of the array. -/
theorem xblk_apply (c : Dev nD) (t : Fin cfg3.N) (p : Fin 5000) (q : Fin 64) :
    xblk V c t (ix2 p q) = xarr V c (ix2 ⟨5000 * t.val + p.val, by have := lt20 t; have := p.isLt; omega⟩ q) := by
  obtain ⟨e0, e1, -⟩ := idx_facts t
  show V c main_v61 (((cfg3.win 0).blk t).view.emb (ix2 p q)) = V c main_v61 _
  refine congrArg (V c main_v61) ?_
  funext a; apply Fin.ext
  match a with
  | ⟨0, _⟩ => show win3_0.index t (0 : Fin 2) * 5000 + 1 * p.val = 5000 * t.val + p.val; omega
  | ⟨1, _⟩ => show win3_0.index t (1 : Fin 2) * 64 + 1 * q.val = q.val; omega

/-- The bias row's block at every point is the whole row. -/
theorem bblk_apply (c : Dev nD) (t : Fin cfg3.N) (u : Fin 1) (q : Fin 64) :
    bblk V c t (ix2 u q) = barr V c (ix2 u q) := by
  obtain ⟨-, -, e2, e3, -⟩ := idx_facts t
  show V c main_v62 (((cfg3.win 1).blk t).view.emb (ix2 u q)) = V c main_v62 _
  refine congrArg (V c main_v62) ?_
  funext a; apply Fin.ext
  match a with
  | ⟨0, _⟩ => show win3_1.index t (0 : Fin 2) * 1 + 1 * u.val = u.val; omega
  | ⟨1, _⟩ => show win3_1.index t (1 : Fin 2) * 64 + 1 * q.val = q.val; omega

/-- What point t writes back is block t of the rectified sum of the whole arrays. -/
theorem flushed_eq (c : Dev nD) (t : Fin cfg3.N) :
    (dat3 V c).flushed 2 t = ((cfg3.win 2).blk t).view.read (Elt Ideal) (relu (addRow1 (xarr V c) (barr V c))) := by
  show (cfg3.win 2).cut (grid3.coords t) ((dat3 V c).after 2 t) = _
  rw [after3_2]
  unfold out3_2
  rw [View.canon_unit_zero hz]
  simp only [View.ld_unit_zero (S := S5000x64) hz, View.ld_unit_zero (S := S1x64) hz]
  funext j
  obtain ⟨p, q, rfl⟩ : ∃ (p : Fin 5000) (q : Fin 64), j = ix2 p q := ⟨j 0, j 1, eq_ix2 j⟩
  obtain ⟨-, -, -, -, e4, e5⟩ := idx_facts t
  refine (pay_apply (xblk V c t) (bblk V c t) p q).trans ?_
  show _ = relu (addRow1 (xarr V c) (barr V c)) (((cfg3.win 2).blk t).view.emb (ix2 p q))
  have he : ((cfg3.win 2).blk t).view.emb (ix2 p q)
      = ix2 (n0 := 100000) ⟨5000 * t.val + p.val, by have := lt20 t; have := p.isLt; omega⟩ q := by
    funext a; apply Fin.ext
    match a with
    | ⟨0, _⟩ => show win3_2.index t (0 : Fin 2) * 5000 + 1 * p.val = 5000 * t.val + p.val; omega
    | ⟨1, _⟩ => show win3_2.index t (1 : Fin 2) * 64 + 1 * q.val = q.val; omega
  rw [he, relu_apply, addRow1_apply, xblk_apply, bblk_apply]

/-- An index of the result is in point t's block iff each coordinate is in the block's range. -/
theorem mem_blk (t : Fin cfg3.N) (i : S100000x64.Idx) :
    i ∈ ((cfg3.win 2).blk t).view.set ↔ ∀ a : Fin 2, win3_2.index t a * S5000x64.size a ≤ (i a).val ∧ (i a).val < win3_2.index t a * S5000x64.size a + S5000x64.size a := by
  show i ∈ ((View.whole main_v63).slice (win3_2.rect t)).set ↔ _
  rw [View.set_slice_whole, Rect.mem_set_unit]
  exact Iff.rfl

/-- Every row of the result is in the block of the point its number divided by 5000 names. -/
theorem cover (i : S100000x64.Idx) : ∃ t : Fin cfg3.N, (cfg3.win 2).flush t = true ∧ i ∈ ((cfg3.win 2).blk t).view.set := by
  have hi0 : (i 0).val < 100000 := (i 0).isLt
  have hi1 : (i 1).val < 64 := (i 1).isLt
  let t : Fin cfg3.N := ⟨(i 0).val / 5000, by rw [show cfg3.N = 20 from N_3]; omega⟩
  obtain ⟨-, -, -, -, e4, e5⟩ := idx_facts t
  have e4' : win3_2.index t (0 : Fin 2) = (i 0).val / 5000 := e4
  refine ⟨t, flush3_2 t, ?_⟩
  rw [mem_blk]
  intro a
  match a with
  | ⟨0, _⟩ => show win3_2.index t (0 : Fin 2) * 5000 ≤ (i 0).val ∧ (i 0).val < win3_2.index t (0 : Fin 2) * 5000 + 5000; omega
  | ⟨1, _⟩ => show win3_2.index t (1 : Fin 2) * 64 ≤ (i 1).val ∧ (i 1).val < win3_2.index t (1 : Fin 2) * 64 + 64; omega

/-- The result array after the region: the bias row added to the features as the region finds them, rectified. -/
theorem final (c : Dev nD) : (dat3 V c).arrAt 2 cfg3.N = relu (addRow1 (xarr V c) (barr V c)) :=
  (dat3 V c).arrAt_eq_of_cover 2 (relu (addRow1 (xarr V c) (barr V c))) (fun t _ => flushed_eq V c t) cover

end Cert.KernelIdeal.Region3

end
-- ==== Proof.KRegion4.lean ====
/-
  The third dense layer's kernel region, as one function of the arrays it finds.

  The grid has 20 points. Point t stages rows 5000·t … 5000·t + 4999 of the rectified second-layer features (64 columns) and the whole
  64×64 weight matrix, multiplies them into a zero accumulator and writes the 5000×64 product back as rows 5000·t …
  of the result. Entry (5000·t + p, q) of the result is therefore Σ_l x(5000·t + p, l)·w(l, q): the blocks are the
  restrictions of the one product of the whole arrays, and the 20 blocks tile the 100000 rows.
-/
import proofs.«152441_j7919919694018_1_alg».proof.Proof.Gen.KernelIdeal.Frame
import proofs.«152441_j7919919694018_1_alg».proof.Proof.Layer
import Idealize.ShloMosaic.Lib.Pipeline.Value

set_option maxRecDepth 16384

noncomputable section

namespace Cert.KernelIdeal.Region4

open Cert.KernelIdeal Cert.KernelIdeal.Gen Cert.Gcn
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The block product at an entry: the sum over the contracted coordinate (the cast to the same shape and the
    narrowing to bf16 are the identity on the extended reals). -/
theorem pay_apply (x0 : Vec Ideal S5000x64 .f32) (x1 : Vec Ideal S64x64 .f32) (p : Fin 5000) (q : Fin 64) :
    k4_pay1 x0 x1 (ix2 p q) = ∑ l : Fin 64, x0 (ix2 p l) * x1 (ix2 l q) := by
  unfold k4_pay1
  refine (matmul_trunc_apply dot_S5000x64_S64x64_S5000x64_1_0_0_1_n_n_wf none bitsLt_bf16_f32
    (shapeCast S5000x64 x0 shapeCasts_S5000x64_S5000x64) x1 p q).trans ?_
  rw [shapeCast_self]

/-- The printed index maps over the grid: the row windows move with the point, the weights stay. -/
theorem idx_facts : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 :=
  (by decide +kernel : ∀ t : Fin grid4.N, _)

theorem lt20 (t : Fin cfg4.N) : t.val < 20 := lt_of_lt_of_eq t.isLt N_4

/-- The features' block at point t, and the weights' block, as arrays of their literal shapes. -/
abbrev xblk (c : Dev nD) (t : Fin cfg4.N) : Vec Ideal S5000x64 .f32 := iblk4 V c 0 t
abbrev wblk (c : Dev nD) (t : Fin cfg4.N) : Vec Ideal S64x64 .f32 := iblk4 V c 1 t
abbrev xarr (c : Dev nD) : Vec Ideal S100000x64 .f32 := V c main_v63
abbrev warr (c : Dev nD) : Vec Ideal S64x64 .f32 := V c main_arg6

/-- Row p of the features' block at point t is row 5000·t + p of the array. -/
theorem xblk_apply (c : Dev nD) (t : Fin cfg4.N) (p : Fin 5000) (l : Fin 64) :
    xblk V c t (ix2 p l) = xarr V c (ix2 ⟨5000 * t.val + p.val, by have := lt20 t; have := p.isLt; omega⟩ l) := by
  obtain ⟨e0, e1, -⟩ := idx_facts t
  show V c main_v63 (((cfg4.win 0).blk t).view.emb (ix2 p l)) = V c main_v63 _
  refine congrArg (V c main_v63) ?_
  funext a; apply Fin.ext
  match a with
  | ⟨0, _⟩ => show win4_0.index t (0 : Fin 2) * 5000 + 1 * p.val = 5000 * t.val + p.val; omega
  | ⟨1, _⟩ => show win4_0.index t (1 : Fin 2) * 64 + 1 * l.val = l.val; omega

/-- The weights' block at every point is the whole array. -/
theorem wblk_apply (c : Dev nD) (t : Fin cfg4.N) (l : Fin 64) (q : Fin 64) :
    wblk V c t (ix2 l q) = warr V c (ix2 l q) := by
  obtain ⟨-, -, e2, e3, -⟩ := idx_facts t
  show V c main_arg6 (((cfg4.win 1).blk t).view.emb (ix2 l q)) = V c main_arg6 _
  refine congrArg (V c main_arg6) ?_
  funext a; apply Fin.ext
  match a with
  | ⟨0, _⟩ => show win4_1.index t (0 : Fin 2) * 64 + 1 * l.val = l.val; omega
  | ⟨1, _⟩ => show win4_1.index t (1 : Fin 2) * 64 + 1 * q.val = q.val; omega

/-- What point t writes back is block t of the product of the whole arrays. -/
theorem flushed_eq (c : Dev nD) (t : Fin cfg4.N) :
    (dat4 V c).flushed 2 t = ((cfg4.win 2).blk t).view.read (Elt Ideal) (dense (xarr V c) (warr V c)) := by
  show (cfg4.win 2).cut (grid4.coords t) ((dat4 V c).after 2 t) = _
  rw [after4_2]
  unfold out4_2
  rw [View.canon_unit_zero hz]
  simp only [View.ld_unit_zero (S := S5000x64) hz, View.ld_unit_zero (S := S64x64) hz]
  funext j
  obtain ⟨p, q, rfl⟩ : ∃ (p : Fin 5000) (q : Fin 64), j = ix2 p q := ⟨j 0, j 1, eq_ix2 j⟩
  obtain ⟨-, -, -, -, e4, e5⟩ := idx_facts t
  refine (pay_apply (xblk V c t) (wblk V c t) p q).trans ?_
  show _ = dense (xarr V c) (warr V c) (((cfg4.win 2).blk t).view.emb (ix2 p q))
  have he : ((cfg4.win 2).blk t).view.emb (ix2 p q)
      = ix2 (n0 := 100000) ⟨5000 * t.val + p.val, by have := lt20 t; have := p.isLt; omega⟩ q := by
    funext a; apply Fin.ext
    match a with
    | ⟨0, _⟩ => show win4_2.index t (0 : Fin 2) * 5000 + 1 * p.val = 5000 * t.val + p.val; omega
    | ⟨1, _⟩ => show win4_2.index t (1 : Fin 2) * 64 + 1 * q.val = q.val; omega
  rw [he, dense_apply]
  refine Finset.sum_congr rfl fun l _ => ?_
  rw [xblk_apply, wblk_apply]

/-- An index of the result is in point t's block iff each coordinate is in the block's range. -/
theorem mem_blk (t : Fin cfg4.N) (i : S100000x64.Idx) :
    i ∈ ((cfg4.win 2).blk t).view.set ↔ ∀ a : Fin 2, win4_2.index t a * S5000x64.size a ≤ (i a).val ∧ (i a).val < win4_2.index t a * S5000x64.size a + S5000x64.size a := by
  show i ∈ ((View.whole main_v64).slice (win4_2.rect t)).set ↔ _
  rw [View.set_slice_whole, Rect.mem_set_unit]
  exact Iff.rfl

/-- Every row of the result is in the block of the point its number divided by 5000 names. -/
theorem cover (i : S100000x64.Idx) : ∃ t : Fin cfg4.N, (cfg4.win 2).flush t = true ∧ i ∈ ((cfg4.win 2).blk t).view.set := by
  have hi0 : (i 0).val < 100000 := (i 0).isLt
  have hi1 : (i 1).val < 64 := (i 1).isLt
  let t : Fin cfg4.N := ⟨(i 0).val / 5000, by rw [show cfg4.N = 20 from N_4]; omega⟩
  obtain ⟨-, -, -, -, e4, e5⟩ := idx_facts t
  have e4' : win4_2.index t (0 : Fin 2) = (i 0).val / 5000 := e4
  refine ⟨t, flush4_2 t, ?_⟩
  rw [mem_blk]
  intro a
  match a with
  | ⟨0, _⟩ => show win4_2.index t (0 : Fin 2) * 5000 ≤ (i 0).val ∧ (i 0).val < win4_2.index t (0 : Fin 2) * 5000 + 5000; omega
  | ⟨1, _⟩ => show win4_2.index t (1 : Fin 2) * 64 ≤ (i 1).val ∧ (i 1).val < win4_2.index t (1 : Fin 2) * 64 + 64; omega

/-- The result array after the region: the product of the features and the weights as the region finds them. -/
theorem final (c : Dev nD) : (dat4 V c).arrAt 2 cfg4.N = dense (xarr V c) (warr V c) :=
  (dat4 V c).arrAt_eq_of_cover 2 (dense (xarr V c) (warr V c)) (fun t _ => flushed_eq V c t) cover

end Cert.KernelIdeal.Region4

end
-- ==== Proof.KRegion5.lean ====
/-
  The last bias kernel region, as one function of the arrays it finds.

  The grid has 20 points. Point t stages rows 5000·t … 5000·t + 4999 of the aggregated features (64 columns) and
  the bias laid out as one row, adds the row to every staged row and writes the block back as rows 5000·t … of the
  result; the last layer has no rectifier. Entry (r, q) of the result is x(r, q) + b(0, q).
-/
import proofs.«152441_j7919919694018_1_alg».proof.Proof.Gen.KernelIdeal.Frame
import proofs.«152441_j7919919694018_1_alg».proof.Proof.Layer
import Idealize.ShloMosaic.Lib.Pipeline.Value

set_option maxRecDepth 16384

noncomputable section

namespace Cert.KernelIdeal.Region5

open Cert.KernelIdeal Cert.KernelIdeal.Gen Cert.Gcn
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The body's value at an entry: the staged entry plus the bias row's entry of that column. -/
theorem pay_apply (x0 : Vec Ideal S5000x64 .f32) (x1 : Vec Ideal S1x64 .f32) (p : Fin 5000) (q : Fin 64) :
    k5_pay1 x0 x1 (ix2 p q) = x0 (ix2 p q) + x1 (ix2 (0 : Fin 1) q) := by
  unfold k5_pay1
  show shapeCast S5000x64 x0 shapeCasts_S5000x64_S5000x64 (ix2 p q)
      + broadcastTo S5000x64 (shapeCast S1x64 x1 shapeCasts_S1x64_S1x64) broadcasts_S1x64_S5000x64 (ix2 p q) = _
  rw [shapeCast_self, shapeCast_self, broadcastTo_1b_ab_apply]

/-- The printed index maps over the grid: the row windows move with the point, the bias stays. -/
theorem idx_facts : ∀ t : Fin cfg5.N, win5_0.index t (0 : Fin 2) = t.val ∧ win5_0.index t (1 : Fin 2) = 0
    ∧ win5_1.index t (0 : Fin 2) = 0 ∧ win5_1.index t (1 : Fin 2) = 0
    ∧ win5_2.index t (0 : Fin 2) = t.val ∧ win5_2.index t (1 : Fin 2) = 0 :=
  (by decide +kernel : ∀ t : Fin grid5.N, _)

theorem lt20 (t : Fin cfg5.N) : t.val < 20 := lt_of_lt_of_eq t.isLt N_5

abbrev xblk (c : Dev nD) (t : Fin cfg5.N) : Vec Ideal S5000x64 .f32 := iblk5 V c 0 t
abbrev bblk (c : Dev nD) (t : Fin cfg5.N) : Vec Ideal S1x64 .f32 := iblk5 V c 1 t
abbrev xarr (c : Dev nD) : Vec Ideal S100000x64 .f32 := V c main_v77
abbrev barr (c : Dev nD) : Vec Ideal S1x64 .f32 := V c main_v78

/-- Row p of the staged block at point t is row 5000·t + p of the array. -/
theorem xblk_apply (c : Dev nD) (t : Fin cfg5.N) (p : Fin 5000) (q : Fin 64) :
    xblk V c t (ix2 p q) = xarr V c (ix2 ⟨5000 * t.val + p.val, by have := lt20 t; have := p.isLt; omega⟩ q) := by
  obtain ⟨e0, e1, -⟩ := idx_facts t
  show V c main_v77 (((cfg5.win 0).blk t).view.emb (ix2 p q)) = V c main_v77 _
  refine congrArg (V c main_v77) ?_
  funext a; apply Fin.ext
  match a with
  | ⟨0, _⟩ => show win5_0.index t (0 : Fin 2) * 5000 + 1 * p.val = 5000 * t.val + p.val; omega
  | ⟨1, _⟩ => show win5_0.index t (1 : Fin 2) * 64 + 1 * q.val = q.val; omega

/-- The bias row's block at every point is the whole row. -/
theorem bblk_apply (c : Dev nD) (t : Fin cfg5.N) (u : Fin 1) (q : Fin 64) :
    bblk V c t (ix2 u q) = barr V c (ix2 u q) := by
  obtain ⟨-, -, e2, e3, -⟩ := idx_facts t
  show V c main_v78 (((cfg5.win 1).blk t).view.emb (ix2 u q)) = V c main_v78 _
  refine congrArg (V c main_v78) ?_
  funext a; apply Fin.ext
  match a with
  | ⟨0, _⟩ => show win5_1.index t (0 : Fin 2) * 1 + 1 * u.val = u.val; omega
  | ⟨1, _⟩ => show win5_1.index t (1 : Fin 2) * 64 + 1 * q.val = q.val; omega

/-- What point t writes back is block t of the sum of the whole arrays. -/
theorem flushed_eq (c : Dev nD) (t : Fin cfg5.N) :
    (dat5 V c).flushed 2 t = ((cfg5.win 2).blk t).view.read (Elt Ideal) (addRow1 (xarr V c) (barr V c)) := by
  show (cfg5.win 2).cut (grid5.coords t) ((dat5 V c).after 2 t) = _
  rw [after5_2]
  unfold out5_2
  rw [View.canon_unit_zero hz]
  simp only [View.ld_unit_zero (S := S5000x64) hz, View.ld_unit_zero (S := S1x64) hz]
  funext j
  obtain ⟨p, q, rfl⟩ : ∃ (p : Fin 5000) (q : Fin 64), j = ix2 p q := ⟨j 0, j 1, eq_ix2 j⟩
  obtain ⟨-, -, -, -, e4, e5⟩ := idx_facts t
  refine (pay_apply (xblk V c t) (bblk V c t) p q).trans ?_
  show _ = addRow1 (xarr V c) (barr V c) (((cfg5.win 2).blk t).view.emb (ix2 p q))
  have he : ((cfg5.win 2).blk t).view.emb (ix2 p q)
      = ix2 (n0 := 100000) ⟨5000 * t.val + p.val, by have := lt20 t; have := p.isLt; omega⟩ q := by
    funext a; apply Fin.ext
    match a with
    | ⟨0, _⟩ => show win5_2.index t (0 : Fin 2) * 5000 + 1 * p.val = 5000 * t.val + p.val; omega
    | ⟨1, _⟩ => show win5_2.index t (1 : Fin 2) * 64 + 1 * q.val = q.val; omega
  rw [he, addRow1_apply, xblk_apply, bblk_apply]

/-- An index of the result is in point t's block iff each coordinate is in the block's range. -/
theorem mem_blk (t : Fin cfg5.N) (i : S100000x64.Idx) :
    i ∈ ((cfg5.win 2).blk t).view.set ↔ ∀ a : Fin 2, win5_2.index t a * S5000x64.size a ≤ (i a).val ∧ (i a).val < win5_2.index t a * S5000x64.size a + S5000x64.size a := by
  show i ∈ ((View.whole main_v79).slice (win5_2.rect t)).set ↔ _
  rw [View.set_slice_whole, Rect.mem_set_unit]
  exact Iff.rfl

/-- Every row of the result is in the block of the point its number divided by 5000 names. -/
theorem cover (i : S100000x64.Idx) : ∃ t : Fin cfg5.N, (cfg5.win 2).flush t = true ∧ i ∈ ((cfg5.win 2).blk t).view.set := by
  have hi0 : (i 0).val < 100000 := (i 0).isLt
  have hi1 : (i 1).val < 64 := (i 1).isLt
  let t : Fin cfg5.N := ⟨(i 0).val / 5000, by rw [show cfg5.N = 20 from N_5]; omega⟩
  obtain ⟨-, -, -, -, e4, e5⟩ := idx_facts t
  have e4' : win5_2.index t (0 : Fin 2) = (i 0).val / 5000 := e4
  refine ⟨t, flush5_2 t, ?_⟩
  rw [mem_blk]
  intro a
  match a with
  | ⟨0, _⟩ => show win5_2.index t (0 : Fin 2) * 5000 ≤ (i 0).val ∧ (i 0).val < win5_2.index t (0 : Fin 2) * 5000 + 5000; omega
  | ⟨1, _⟩ => show win5_2.index t (1 : Fin 2) * 64 ≤ (i 1).val ∧ (i 1).val < win5_2.index t (1 : Fin 2) * 64 + 64; omega

/-- The result array after the region: the bias row added to the features as the region finds them. -/
theorem final (c : Dev nD) : (dat5 V c).arrAt 2 cfg5.N = addRow1 (xarr V c) (barr V c) :=
  (dat5 V c).arrAt_eq_of_cover 2 (addRow1 (xarr V c) (barr V c)) (fun t _ => flushed_eq V c t) cover

end Cert.KernelIdeal.Region5

end
-- ==== Proof.KValue.lean ====
/-
  What the kernel's program leaves in its result array, as one function of the launch memory.

  The boundaries of @main are walked in order. The three host stretches before the first region compute, from the
  edge list alone, the source words, the target words and the edge weights; nothing later writes them, so every
  later boundary still holds them. Each dense region leaves the product of the features it finds with its weights
  (an argument array, untouched since the launch); each host stretch between regions passes that product along
  the edges and lays the bias out as one row; each bias region adds the row (and rectifies, in the first two
  rounds). Reading the result array back through the boundaries gives the three rounds composed.
-/
import proofs.«152441_j7919919694018_1_alg».proof.Proof.Gen.KernelIdeal.Frame
import proofs.«152441_j7919919694018_1_alg».proof.Proof.KNet
import proofs.«152441_j7919919694018_1_alg».proof.Proof.KRegion0
import proofs.«152441_j7919919694018_1_alg».proof.Proof.KRegion1
import proofs.«152441_j7919919694018_1_alg».proof.Proof.KRegion2
import proofs.«152441_j7919919694018_1_alg».proof.Proof.KRegion3
import proofs.«152441_j7919919694018_1_alg».proof.Proof.KRegion4
import proofs.«152441_j7919919694018_1_alg».proof.Proof.KRegion5
import Idealize.ShloMosaic.Lib.StableHlo.Run

set_option maxRecDepth 16384

noncomputable section

namespace Cert.KernelIdeal.Whole

open Cert.KernelIdeal Cert.KernelIdeal.Gen Cert.KernelIdeal.Gcn Cert.Gcn
open Idealize.ShloMosaic Idealize.ShloMosaic.TcCoe Idealize.SL.Sem Idealize.ShloMosaic.StableHlo

variable (m : (ℓ : Loc nD τ sig) → Buf (Elt Ideal) ℓ) (ρ : Dev nD → PrngReg)

/-- Walks a buffer that nothing writes back through the boundaries: a region leaves every buffer that is not one of
    its arrays, a host stretch every buffer none of its operations writes. -/
macro "walk_back" : tactic => `(tactic| (
  repeat (first
    | rfl
    | rw [W10_of_ne _ _ _ _ (by decide)]
    | rw [W9_of_ne _ _ _ _ (by decide)]
    | rw [W7_of_ne _ _ _ _ (by decide)]
    | rw [W6_of_ne _ _ _ _ (by decide)]
    | rw [W4_of_ne _ _ _ _ (by decide)]
    | after_results_simp)))

/-! ## The edge list's three arrays, as the first region finds them -/

/-- The source words. -/
abbrev srcK (c : Dev nD) : IVec S3300000 32 := W3 m ρ c (Proc.devRef .tc main_v3)
/-- The target words. -/
abbrev dstK (c : Dev nD) : IVec S3300000 32 := W3 m ρ c (Proc.devRef .tc main_v6)
/-- The edge weights. -/
abbrev nrmK (c : Dev nD) : FVec Ideal S3300000 .f32 := W3 m ρ c (Proc.devRef .tc main_v31)

/-! ## The argument arrays at the boundaries where they are read -/

set_option maxHeartbeats 2000000 in
theorem W3_arg0 (c : Dev nD) : W3 m ρ c (Proc.devRef .tc main_arg0) = m ((c : Thread nD τ).loc main_arg0) := by walk_back
set_option maxHeartbeats 2000000 in
theorem W3_arg2 (c : Dev nD) : W3 m ρ c (Proc.devRef .tc main_arg2) = m ((c : Thread nD τ).loc main_arg2) := by walk_back
set_option maxHeartbeats 2000000 in
theorem W4_arg3 (c : Dev nD) : W4 m ρ c (Proc.devRef .tc main_arg3) = m ((c : Thread nD τ).loc main_arg3) := by walk_back
set_option maxHeartbeats 2000000 in
theorem W6_arg4 (c : Dev nD) : W6 m ρ c (Proc.devRef .tc main_arg4) = m ((c : Thread nD τ).loc main_arg4) := by walk_back
set_option maxHeartbeats 2000000 in
theorem W7_arg5 (c : Dev nD) : W7 m ρ c (Proc.devRef .tc main_arg5) = m ((c : Thread nD τ).loc main_arg5) := by walk_back
set_option maxHeartbeats 2000000 in
theorem W9_arg6 (c : Dev nD) : W9 m ρ c (Proc.devRef .tc main_arg6) = m ((c : Thread nD τ).loc main_arg6) := by walk_back
set_option maxHeartbeats 2000000 in
theorem W10_arg7 (c : Dev nD) : W10 m ρ c (Proc.devRef .tc main_arg7) = m ((c : Thread nD τ).loc main_arg7) := by walk_back

/-! ## The edge list's arrays at the later boundaries -/

theorem W4_v3 (c : Dev nD) : W4 m ρ c (Proc.devRef .tc main_v3) = srcK m ρ c := by walk_back
theorem W4_v6 (c : Dev nD) : W4 m ρ c (Proc.devRef .tc main_v6) = dstK m ρ c := by walk_back
theorem W4_v31 (c : Dev nD) : W4 m ρ c (Proc.devRef .tc main_v31) = nrmK m ρ c := by walk_back
set_option maxHeartbeats 2000000 in
theorem W7_v3 (c : Dev nD) : W7 m ρ c (Proc.devRef .tc main_v3) = srcK m ρ c := by walk_back
set_option maxHeartbeats 2000000 in
theorem W7_v6 (c : Dev nD) : W7 m ρ c (Proc.devRef .tc main_v6) = dstK m ρ c := by walk_back
set_option maxHeartbeats 2000000 in
theorem W7_v31 (c : Dev nD) : W7 m ρ c (Proc.devRef .tc main_v31) = nrmK m ρ c := by walk_back
set_option maxHeartbeats 2000000 in
theorem W10_v3 (c : Dev nD) : W10 m ρ c (Proc.devRef .tc main_v3) = srcK m ρ c := by walk_back
set_option maxHeartbeats 2000000 in
theorem W10_v6 (c : Dev nD) : W10 m ρ c (Proc.devRef .tc main_v6) = dstK m ρ c := by walk_back
set_option maxHeartbeats 2000000 in
theorem W10_v31 (c : Dev nD) : W10 m ρ c (Proc.devRef .tc main_v31) = nrmK m ρ c := by walk_back

/-! ## The host stretches between the regions -/

set_option maxHeartbeats 2000000 in
theorem W5_v45 (c : Dev nD) :
    (W5 m ρ c (Proc.devRef .tc main_v45) : (⟨S100000x64, .f32⟩ : BufTy).Contents (Elt Ideal))
      = agg (F := Ideal) (W4 m ρ c (Proc.devRef .tc main_v32)) (W4 m ρ c (Proc.devRef .tc main_v3))
          (W4 m ρ c (Proc.devRef .tc main_v6)) (W4 m ρ c (Proc.devRef .tc main_v31)) := by
  show StableHlo.after hostOps1 (W4 m ρ c) (Proc.devRef .tc main_v45) = _
  after_results_simp
  rfl
set_option maxHeartbeats 2000000 in
theorem W5_v46 (c : Dev nD) :
    (W5 m ρ c (Proc.devRef .tc main_v46) : (⟨S1x64, .f32⟩ : BufTy).Contents (Elt Ideal))
      = shapeCast S1x64 (W4 m ρ c (Proc.devRef .tc main_arg3)) shapeCasts_S64_S1x64 := by
  show StableHlo.after hostOps1 (W4 m ρ c) (Proc.devRef .tc main_v46) = _
  after_results_simp
  rfl
set_option maxHeartbeats 2000000 in
theorem W8_v61 (c : Dev nD) :
    (W8 m ρ c (Proc.devRef .tc main_v61) : (⟨S100000x64, .f32⟩ : BufTy).Contents (Elt Ideal))
      = agg (F := Ideal) (W7 m ρ c (Proc.devRef .tc main_v48)) (W7 m ρ c (Proc.devRef .tc main_v3))
          (W7 m ρ c (Proc.devRef .tc main_v6)) (W7 m ρ c (Proc.devRef .tc main_v31)) := by
  show StableHlo.after hostOps3 (W7 m ρ c) (Proc.devRef .tc main_v61) = _
  after_results_simp
  rfl
set_option maxHeartbeats 2000000 in
theorem W8_v62 (c : Dev nD) :
    (W8 m ρ c (Proc.devRef .tc main_v62) : (⟨S1x64, .f32⟩ : BufTy).Contents (Elt Ideal))
      = shapeCast S1x64 (W7 m ρ c (Proc.devRef .tc main_arg5)) shapeCasts_S64_S1x64 := by
  show StableHlo.after hostOps3 (W7 m ρ c) (Proc.devRef .tc main_v62) = _
  after_results_simp
  rfl
set_option maxHeartbeats 2000000 in
theorem W11_v77 (c : Dev nD) :
    (W11 m ρ c (Proc.devRef .tc main_v77) : (⟨S100000x64, .f32⟩ : BufTy).Contents (Elt Ideal))
      = agg (F := Ideal) (W10 m ρ c (Proc.devRef .tc main_v64)) (W10 m ρ c (Proc.devRef .tc main_v3))
          (W10 m ρ c (Proc.devRef .tc main_v6)) (W10 m ρ c (Proc.devRef .tc main_v31)) := by
  show StableHlo.after hostOps5 (W10 m ρ c) (Proc.devRef .tc main_v77) = _
  after_results_simp
  rfl
set_option maxHeartbeats 2000000 in
theorem W11_v78 (c : Dev nD) :
    (W11 m ρ c (Proc.devRef .tc main_v78) : (⟨S1x64, .f32⟩ : BufTy).Contents (Elt Ideal))
      = shapeCast S1x64 (W10 m ρ c (Proc.devRef .tc main_arg7)) shapeCasts_S64_S1x64 := by
  show StableHlo.after hostOps5 (W10 m ρ c) (Proc.devRef .tc main_v78) = _
  after_results_simp
  rfl

/-! ## The three rounds, boundary by boundary -/

/-- The argument arrays, by name. -/
abbrev x0 (c : Dev nD) : Vec Ideal S100000x128 .f32 := m ((c : Thread nD τ).loc main_arg0)
abbrev w1 (c : Dev nD) : Vec Ideal S128x64 .f32 := m ((c : Thread nD τ).loc main_arg2)
abbrev b1 (c : Dev nD) : Vec Ideal S64 .f32 := m ((c : Thread nD τ).loc main_arg3)
abbrev w2 (c : Dev nD) : Vec Ideal S64x64 .f32 := m ((c : Thread nD τ).loc main_arg4)
abbrev b2 (c : Dev nD) : Vec Ideal S64 .f32 := m ((c : Thread nD τ).loc main_arg5)
abbrev w3 (c : Dev nD) : Vec Ideal S64x64 .f32 := m ((c : Thread nD τ).loc main_arg6)
abbrev b3 (c : Dev nD) : Vec Ideal S64 .f32 := m ((c : Thread nD τ).loc main_arg7)

/-- After the first dense region: the features times the first weights. -/
theorem W4_v32 (c : Dev nD) :
    (W4 m ρ c (Proc.devRef .tc main_v32) : Vec Ideal S100000x64 .f32) = dense (x0 m c) (w1 m c) := by
  refine (W4_arr m ρ c 2).trans ?_
  refine (Region0.final (V3 m ρ) c).trans ?_
  show dense (W3 m ρ c (Proc.devRef .tc main_arg0)) (W3 m ρ c (Proc.devRef .tc main_arg2)) = _
  rw [W3_arg0, W3_arg2]

/-- After the first bias region: the first round, rectified. -/
theorem W6_v47 (c : Dev nD) :
    (W6 m ρ c (Proc.devRef .tc main_v47) : Vec Ideal S100000x64 .f32)
      = relu (round (srcK m ρ c) (dstK m ρ c) (nrmK m ρ c) (x0 m c) (w1 m c) (b1 m c)) := by
  refine (W6_arr m ρ c 2).trans ?_
  refine (Region1.final (V5 m ρ) c).trans ?_
  show relu (addRow1 (W5 m ρ c (Proc.devRef .tc main_v45)) (W5 m ρ c (Proc.devRef .tc main_v46))) = _
  rw [W5_v45, W5_v46, W4_v32, W4_v3, W4_v6, W4_v31, W4_arg3, addRow1_cast]
  rfl

/-- After the second dense region. -/
theorem W7_v48 (c : Dev nD) :
    (W7 m ρ c (Proc.devRef .tc main_v48) : Vec Ideal S100000x64 .f32)
      = dense (relu (round (srcK m ρ c) (dstK m ρ c) (nrmK m ρ c) (x0 m c) (w1 m c) (b1 m c))) (w2 m c) := by
  refine (W7_arr m ρ c 2).trans ?_
  refine (Region2.final (V6 m ρ) c).trans ?_
  show dense (W6 m ρ c (Proc.devRef .tc main_v47)) (W6 m ρ c (Proc.devRef .tc main_arg4)) = _
  rw [W6_v47, W6_arg4]

/-- After the second bias region: the second round, rectified. -/
theorem W9_v63 (c : Dev nD) :
    (W9 m ρ c (Proc.devRef .tc main_v63) : Vec Ideal S100000x64 .f32)
      = relu (round (srcK m ρ c) (dstK m ρ c) (nrmK m ρ c)
          (relu (round (srcK m ρ c) (dstK m ρ c) (nrmK m ρ c) (x0 m c) (w1 m c) (b1 m c))) (w2 m c) (b2 m c)) := by
  refine (W9_arr m ρ c 2).trans ?_
  refine (Region3.final (V8 m ρ) c).trans ?_
  show relu (addRow1 (W8 m ρ c (Proc.devRef .tc main_v61)) (W8 m ρ c (Proc.devRef .tc main_v62))) = _
  rw [W8_v61, W8_v62, W7_v48, W7_v3, W7_v6, W7_v31, W7_arg5, addRow1_cast]
  rfl

/-- After the third dense region. -/
theorem W10_v64 (c : Dev nD) :
    (W10 m ρ c (Proc.devRef .tc main_v64) : Vec Ideal S100000x64 .f32)
      = dense (relu (round (srcK m ρ c) (dstK m ρ c) (nrmK m ρ c)
          (relu (round (srcK m ρ c) (dstK m ρ c) (nrmK m ρ c) (x0 m c) (w1 m c) (b1 m c))) (w2 m c) (b2 m c))) (w3 m c) := by
  refine (W10_arr m ρ c 2).trans ?_
  refine (Region4.final (V9 m ρ) c).trans ?_
  show dense (W9 m ρ c (Proc.devRef .tc main_v63)) (W9 m ρ c (Proc.devRef .tc main_arg6)) = _
  rw [W9_v63, W9_arg6]

/-- THE RESULT: after the last bias region the result array holds the three rounds of the launch's arrays. -/
theorem W12_v79 (c : Dev nD) :
    (W12 m ρ c (Proc.devRef .tc main_v79) : Vec Ideal S100000x64 .f32)
      = net (srcK m ρ c) (dstK m ρ c) (nrmK m ρ c) (x0 m c) (w1 m c) (b1 m c) (w2 m c) (b2 m c) (w3 m c) (b3 m c) := by
  refine (W12_arr m ρ c 2).trans ?_
  refine (Region5.final (V11 m ρ) c).trans ?_
  show addRow1 (W11 m ρ c (Proc.devRef .tc main_v77)) (W11 m ρ c (Proc.devRef .tc main_v78)) = _
  rw [W11_v77, W11_v78, W10_v64, W10_v3, W10_v6, W10_v31, W10_arg7, addRow1_cast]
  rfl

end Cert.KernelIdeal.Whole

end
-- ==== Proof.RValue.lean ====
/-
  The reference, read as the same three rounds.

  The reference's @main is the host program with nothing fused: the edge list's source words, target words and
  weights first, then three times a product with the weights, the pass along the edges, the bias row laid out over
  all rows and added, and (after the first two) the larger of each entry and zero. Stage by stage these are the
  functions the kernel's side is stated with: the host's product is the sum over the contracted coordinate, the pass
  along the edges is the very same chain of gather, scale and scatter, and the bias row broadcast twice reads the
  vector's entry of the column.
-/
import proofs.«152441_j7919919694018_1_alg».proof.Proof.RefRead
import proofs.«152441_j7919919694018_1_alg».proof.Proof.Gen.KernelIdeal
import proofs.«152441_j7919919694018_1_alg».proof.Proof.KNet

set_option maxRecDepth 16384

noncomputable section

namespace Cert.ReferenceIdeal.Whole

open Cert.ReferenceIdeal Cert.ReferenceIdeal.Gen Cert.ReferenceIdeal.ReadP Cert.Gcn
open Idealize.ShloMosaic Idealize.ShloMosaic.ValueIdx

variable (a0 : (⟨S100000x128, .f32⟩ : BufTy).Contents (Elt Ideal)) (a1 : (⟨S2x3200000, .i32⟩ : BufTy).Contents (Elt Ideal))
  (a2 : (⟨S128x64, .f32⟩ : BufTy).Contents (Elt Ideal)) (a3 : (⟨S64, .f32⟩ : BufTy).Contents (Elt Ideal))
  (a4 : (⟨S64x64, .f32⟩ : BufTy).Contents (Elt Ideal)) (a5 : (⟨S64, .f32⟩ : BufTy).Contents (Elt Ideal))
  (a6 : (⟨S64x64, .f32⟩ : BufTy).Contents (Elt Ideal)) (a7 : (⟨S64, .f32⟩ : BufTy).Contents (Elt Ideal))

/-- The bias vector laid along the columns of one row, that row repeated down all rows, added, and the larger of
    each entry and zero taken: the rectified sum with the bias row. -/
theorem bias_relu (x : FVec Ideal S100000x64 .f32) (b : FVec Ideal S64 .f32) :
    maximumf (addf x (broadcastInDim S100000x64 ![0, 1] bcast_S1x64_S100000x64_0_1 (broadcastInDim S1x64 ![1] bcast_S64_S1x64_1 b)))
        (broadcastInDim S100000x64 ![] bcast_S_S100000x64 (constant (F := Ideal) S_ .f32 0x00000000#32))
      = relu (addRow x b) := by
  funext i
  obtain ⟨r, h, rfl⟩ : ∃ (r : Fin 100000) (h : Fin 64), i = ix2 r h := ⟨i 0, i 1, eq_ix2 i⟩
  show max (x (ix2 r h) + broadcastInDim S100000x64 ![0, 1] bcast_S1x64_S100000x64_0_1
      (broadcastInDim S1x64 ![1] bcast_S64_S1x64_1 b) (ix2 r h)) (Ideal.ofBits .f32 0x00000000#32) = _
  rw [DenseLayer.bias_inDim_apply]
  rfl

/-- The same without the rectifier. -/
theorem bias_only (x : FVec Ideal S100000x64 .f32) (b : FVec Ideal S64 .f32) :
    addf x (broadcastInDim S100000x64 ![0, 1] bcast_S1x64_S100000x64_0_1 (broadcastInDim S1x64 ![1] bcast_S64_S1x64_1 b))
      = addRow x b := by
  funext i
  obtain ⟨r, h, rfl⟩ : ∃ (r : Fin 100000) (h : Fin 64), i = ix2 r h := ⟨i 0, i 1, eq_ix2 i⟩
  show x (ix2 r h) + broadcastInDim S100000x64 ![0, 1] bcast_S1x64_S100000x64_0_1
      (broadcastInDim S1x64 ![1] bcast_S64_S1x64_1 b) (ix2 r h) = _
  rw [DenseLayer.bias_inDim_apply]
  rfl

/-! ## Round one -/

theorem v32_eq : val_main_v32 (F := Ideal) a0 a2 = dense a0 a2 := by
  unfold val_main_v32
  exact dotGeneral_eq_dense _ none _ a0 a2

theorem v45_eq : val_main_v45 (F := Ideal) a0 a1 a2
    = Cert.KernelIdeal.Gcn.agg (F := Ideal) (val_main_v32 a0 a2) (val_main_v3 a1) (val_main_v6 a1) (val_main_v31 a1) := by
  unfold val_main_v45 val_main_v44 val_main_v43 val_main_cst_9 val_main_v42 val_main_v41 val_main_v40 val_main_v39
    val_main_v38 val_main_v37 val_main_v36 val_main_v35 val_main_c_8 val_main_v34 val_main_v33 val_main_c_7
  rfl

theorem v49_eq : val_main_v49 (F := Ideal) a0 a1 a2 a3
    = relu (Cert.KernelIdeal.Gcn.round (val_main_v3 a1) (val_main_v6 a1) (val_main_v31 a1) a0 a2 a3) := by
  unfold val_main_v49 val_main_v48 val_main_v47 val_main_v46 val_main_call1_v0 val_main_call1_cst
  rw [v45_eq, v32_eq]
  exact bias_relu _ a3

/-! ## Round two -/

theorem v50_eq : val_main_v50 (F := Ideal) a0 a1 a2 a3 a4 = dense (val_main_v49 a0 a1 a2 a3) a4 := by
  unfold val_main_v50
  exact dotGeneral_eq_dense _ none _ _ a4

theorem v63_eq : val_main_v63 (F := Ideal) a0 a1 a2 a3 a4
    = Cert.KernelIdeal.Gcn.agg (F := Ideal) (val_main_v50 a0 a1 a2 a3 a4) (val_main_v3 a1) (val_main_v6 a1) (val_main_v31 a1) := by
  unfold val_main_v63 val_main_v62 val_main_v61 val_main_cst_12 val_main_v60 val_main_v59 val_main_v58 val_main_v57
    val_main_v56 val_main_v55 val_main_v54 val_main_v53 val_main_c_11 val_main_v52 val_main_v51 val_main_c_10
  rfl

theorem v67_eq : val_main_v67 (F := Ideal) a0 a1 a2 a3 a4 a5
    = relu (Cert.KernelIdeal.Gcn.round (val_main_v3 a1) (val_main_v6 a1) (val_main_v31 a1)
        (relu (Cert.KernelIdeal.Gcn.round (val_main_v3 a1) (val_main_v6 a1) (val_main_v31 a1) a0 a2 a3)) a4 a5) := by
  unfold val_main_v67 val_main_v66 val_main_v65 val_main_v64 val_main_call2_v0 val_main_call2_cst
  rw [v63_eq, v50_eq, v49_eq]
  exact bias_relu _ a5

/-! ## Round three -/

theorem v68_eq : val_main_v68 (F := Ideal) a0 a1 a2 a3 a4 a5 a6 = dense (val_main_v67 a0 a1 a2 a3 a4 a5) a6 := by
  unfold val_main_v68
  exact dotGeneral_eq_dense _ none _ _ a6

theorem v81_eq : val_main_v81 (F := Ideal) a0 a1 a2 a3 a4 a5 a6
    = Cert.KernelIdeal.Gcn.agg (F := Ideal) (val_main_v68 a0 a1 a2 a3 a4 a5 a6) (val_main_v3 a1) (val_main_v6 a1) (val_main_v31 a1) := by
  unfold val_main_v81 val_main_v80 val_main_v79 val_main_cst_15 val_main_v78 val_main_v77 val_main_v76 val_main_v75
    val_main_v74 val_main_v73 val_main_v72 val_main_v71 val_main_c_14 val_main_v70 val_main_v69 val_main_c_13
  rfl

/-- THE REFERENCE'S RESULT is the three rounds of its arguments, over the edge list's arrays as it computes them. -/
theorem v84_eq : val_main_v84 (F := Ideal) a0 a1 a2 a3 a4 a5 a6 a7
    = Cert.KernelIdeal.Gcn.net (val_main_v3 a1) (val_main_v6 a1) (val_main_v31 a1) a0 a2 a3 a4 a5 a6 a7 := by
  unfold val_main_v84 val_main_v83 val_main_v82
  rw [v81_eq, v68_eq, v67_eq]
  exact bias_only _ a7

end Cert.ReferenceIdeal.Whole

end
-- ==== Proof.Prep.lean ====
/-
  The edge list's three arrays are the same in both programs.

  Before its first region the kernel's program runs the very host operations the reference begins with: both cut
  the two rows out of the edge list and append the node numbers 0 … 99999 (the self loops), count the edges into each
  target (a scatter of ones), take the reciprocal square root of the larger of that count and one where the count
  is positive and zero elsewhere, gather it at the (wrapped) source and target words and multiply. Read back
  through the three host stretches, each array is literally the reference's stage of the edge list.
-/
import proofs.«152441_j7919919694018_1_alg».proof.Proof.Gen.KernelIdeal.Frame
import proofs.«152441_j7919919694018_1_alg».proof.Proof.RefRead
import Idealize.ShloMosaic.Lib.StableHlo.Run

set_option maxRecDepth 16384

noncomputable section

namespace Cert.Proof.Prep

open Cert.KernelIdeal Cert.KernelIdeal.Gen
open Idealize.ShloMosaic Idealize.ShloMosaic.TcCoe Idealize.SL.Sem Idealize.ShloMosaic.StableHlo

variable {F : FTy → Type} [FloatOps F]
variable (m : (ℓ : Loc nD τ sig) → Buf (Elt F) ℓ) (ρ : Dev nD → PrngReg)

/-- The source words: the edge list's first row, then the node numbers. -/
theorem v3_eq (c : Dev nD) :
    (W3 m ρ c (Proc.devRef .tc main_v3) : (⟨S3300000, .i32⟩ : BufTy).Contents (Elt F))
      = Cert.ReferenceIdeal.ReadP.val_main_v3 (F := F) (m ((c : Thread nD τ).loc main_arg1)) := by
  unfold Cert.ReferenceIdeal.ReadP.val_main_v3 Cert.ReferenceIdeal.ReadP.val_main_v2 Cert.ReferenceIdeal.ReadP.val_main_v1
    Cert.ReferenceIdeal.ReadP.val_main_v0
  show StableHlo.after hostOps0_2 (StableHlo.after hostOps0_1 (StableHlo.after hostOps0 (W0 m ρ c))) (Proc.devRef .tc main_v3) = _
  after_results_simp
  rfl

/-- The target words: the edge list's second row, then the node numbers. -/
theorem v6_eq (c : Dev nD) :
    (W3 m ρ c (Proc.devRef .tc main_v6) : (⟨S3300000, .i32⟩ : BufTy).Contents (Elt F))
      = Cert.ReferenceIdeal.ReadP.val_main_v6 (F := F) (m ((c : Thread nD τ).loc main_arg1)) := by
  unfold Cert.ReferenceIdeal.ReadP.val_main_v6 Cert.ReferenceIdeal.ReadP.val_main_v5 Cert.ReferenceIdeal.ReadP.val_main_v4
    Cert.ReferenceIdeal.ReadP.val_main_v0
  show StableHlo.after hostOps0_2 (StableHlo.after hostOps0_1 (StableHlo.after hostOps0 (W0 m ρ c))) (Proc.devRef .tc main_v6) = _
  after_results_simp
  rfl

set_option maxHeartbeats 4000000 in
/-- The edge weights: the normalised degree's root gathered at both ends of every edge and multiplied. -/
theorem v31_eq (c : Dev nD) :
    (W3 m ρ c (Proc.devRef .tc main_v31) : (⟨S3300000, .f32⟩ : BufTy).Contents (Elt F))
      = Cert.ReferenceIdeal.ReadP.val_main_v31 (F := F) (m ((c : Thread nD τ).loc main_arg1)) := by
  unfold Cert.ReferenceIdeal.ReadP.val_main_v31 Cert.ReferenceIdeal.ReadP.val_main_v30 Cert.ReferenceIdeal.ReadP.val_main_v29
    Cert.ReferenceIdeal.ReadP.val_main_v28 Cert.ReferenceIdeal.ReadP.val_main_v27 Cert.ReferenceIdeal.ReadP.val_main_v26
    Cert.ReferenceIdeal.ReadP.val_main_c_6 Cert.ReferenceIdeal.ReadP.val_main_v25 Cert.ReferenceIdeal.ReadP.val_main_v24
    Cert.ReferenceIdeal.ReadP.val_main_c_5 Cert.ReferenceIdeal.ReadP.val_main_v23 Cert.ReferenceIdeal.ReadP.val_main_v22
    Cert.ReferenceIdeal.ReadP.val_main_v21 Cert.ReferenceIdeal.ReadP.val_main_v20 Cert.ReferenceIdeal.ReadP.val_main_v19
    Cert.ReferenceIdeal.ReadP.val_main_c_4 Cert.ReferenceIdeal.ReadP.val_main_v18 Cert.ReferenceIdeal.ReadP.val_main_v17
    Cert.ReferenceIdeal.ReadP.val_main_c Cert.ReferenceIdeal.ReadP.val_main_v16 Cert.ReferenceIdeal.ReadP.val_main_call0_v1
    Cert.ReferenceIdeal.ReadP.val_main_call0_v0 Cert.ReferenceIdeal.ReadP.val_main_cst_3 Cert.ReferenceIdeal.ReadP.val_main_v15
    Cert.ReferenceIdeal.ReadP.val_main_v14 Cert.ReferenceIdeal.ReadP.val_main_v13 Cert.ReferenceIdeal.ReadP.val_main_cst_2
    Cert.ReferenceIdeal.ReadP.val_main_v12 Cert.ReferenceIdeal.ReadP.val_main_v11 Cert.ReferenceIdeal.ReadP.val_main_cst_1
    Cert.ReferenceIdeal.ReadP.val_main_v10 Cert.ReferenceIdeal.ReadP.val_main_v9 Cert.ReferenceIdeal.ReadP.val_main_v8
    Cert.ReferenceIdeal.ReadP.val_main_cst_0 Cert.ReferenceIdeal.ReadP.val_main_v7 Cert.ReferenceIdeal.ReadP.val_main_cst
    Cert.ReferenceIdeal.ReadP.val_main_v6 Cert.ReferenceIdeal.ReadP.val_main_v5 Cert.ReferenceIdeal.ReadP.val_main_v4
    Cert.ReferenceIdeal.ReadP.val_main_v3 Cert.ReferenceIdeal.ReadP.val_main_v2 Cert.ReferenceIdeal.ReadP.val_main_v1
    Cert.ReferenceIdeal.ReadP.val_main_v0
  show StableHlo.after hostOps0_2 (StableHlo.after hostOps0_1 (StableHlo.after hostOps0 (W0 m ρ c))) (Proc.devRef .tc main_v31) = _
  after_results_simp
  rfl

end Cert.Proof.Prep

end
-- ==== Proof.lean ====
/-
  A three-layer graph convolution encoder: the kernel's program against the plain jnp reference, over the extended
  reals.

  Both programs first turn the edge list into source words s, target words d (each with the self loops appended)
  and weights n = deg^(-1/2)[s]·deg^(-1/2)[d]; this part is the same host text in both. Then three rounds: the
  features times a weight matrix, each edge's source row scaled by the edge's weight and added into the edge's target
  row, a bias row added to every row, and after the first two rounds the larger of each entry and zero.

  The kernel's program computes the product and the bias step of every round in pallas_calls over blocks of 5000
  rows: six regions in all. At the ideal values a block product (operands narrowed to bf16, which changes nothing
  there) into the zero accumulator is the restriction of the one product Σ_l x(r, l)·w(l, h) of the whole arrays,
  and the blocks tile the rows; the bias regions are pointwise. So each region leaves one whole-array function of
  what it finds (Proof/KRegion0 … KRegion5), the host stretches between regions are the message passing written once
  as `Gcn.agg`, and the result array ends at `Gcn.net` of the launch's arrays (Proof/KValue). The reference's stages
  read as the same `Gcn.net` (Proof/RValue), over the edge list's arrays as it computes them, which are the
  kernel program's (Proof/Prep). No law of the extended reals beyond reading sums and maxima entry by entry is used,
  so the finiteness of the inputs is never opened.

  The frames of the two kernel programs are the generated ones; the reference's frame is its run with the result
  dropped; the idealization rewrote nothing, so `preserves` is trivial.
-/
import proofs.«152441_j7919919694018_1_alg».proof.Defs
import proofs.«152441_j7919919694018_1_alg».proof.Proof.Gen.Kernel
import proofs.«152441_j7919919694018_1_alg».proof.Proof.Gen.Kernel.Skeleton
import proofs.«152441_j7919919694018_1_alg».proof.Proof.Gen.Kernel.Launch
import proofs.«152441_j7919919694018_1_alg».proof.Proof.Gen.Kernel.Points
import proofs.«152441_j7919919694018_1_alg».proof.Proof.Gen.Kernel.Frame
import proofs.«152441_j7919919694018_1_alg».proof.Proof.Gen.KernelIdeal
import proofs.«152441_j7919919694018_1_alg».proof.Proof.Gen.KernelIdeal.Skeleton
import proofs.«152441_j7919919694018_1_alg».proof.Proof.Gen.KernelIdeal.Launch
import proofs.«152441_j7919919694018_1_alg».proof.Proof.Gen.KernelIdeal.Points
import proofs.«152441_j7919919694018_1_alg».proof.Proof.Gen.KernelIdeal.Frame
import proofs.«152441_j7919919694018_1_alg».proof.Proof.Gen.ReferenceIdeal
import proofs.«152441_j7919919694018_1_alg».proof.Proof.Gen.Pre_finite_inputs
import proofs.«152441_j7919919694018_1_alg».proof.Proof.KRun
import proofs.«152441_j7919919694018_1_alg».proof.Proof.KValue
import proofs.«152441_j7919919694018_1_alg».proof.Proof.RefRun
import proofs.«152441_j7919919694018_1_alg».proof.Proof.RefRead
import proofs.«152441_j7919919694018_1_alg».proof.Proof.RValue
import proofs.«152441_j7919919694018_1_alg».proof.Proof.Prep
import Idealize.ShloMosaic.Adequacy
import Idealize.ShloMosaic.Init

set_option maxRecDepth 16384

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.RunP.run (F := Ideal) m ρ)

/-- The ideal pass rewrote no operation. -/
theorem preserves : Cert.preserves_Kernel_KernelIdeal := trivial

/-- Both programs end with the three rounds of the same arrays: the kernel's result array read back through its
    boundaries, the reference's composed term read stage by stage, and the edge list's three arrays equal. -/
theorem algebraic : Cert.algebraic_KernelIdeal_ReferenceIdeal := by
  intro m ρ m' ρ' _ hagree
  refine ⟨fun c => Cert.KernelIdeal.Gcn.net (Cert.KernelIdeal.Whole.srcK m ρ c) (Cert.KernelIdeal.Whole.dstK m ρ c)
    (Cert.KernelIdeal.Whole.nrmK m ρ c) (Cert.KernelIdeal.Whole.x0 m c) (Cert.KernelIdeal.Whole.w1 m c)
    (Cert.KernelIdeal.Whole.b1 m c) (Cert.KernelIdeal.Whole.w2 m c) (Cert.KernelIdeal.Whole.b2 m c)
    (Cert.KernelIdeal.Whole.w3 m c) (Cert.KernelIdeal.Whole.b3 m c), ?_, ?_⟩
  · exact (θ_run Cert.KernelIdeal.defs _ _).mono
      (fun r h c => ⟨(h c).1.trans (Cert.KernelIdeal.Whole.W12_v79 m ρ c), (h c).2⟩)
      (Cert.KernelIdeal.Whole.run_main (F := Ideal) m ρ)
  · refine (θ_run Cert.ReferenceIdeal.defs _ _).mono (fun r h c => ⟨(h c).1.trans ?_, (h c).2⟩)
      (Cert.ReferenceIdeal.RunP.run (F := Ideal) m' ρ')
    obtain ⟨e0, e1, e2, e3, e4, e5, e6, e7⟩ := hagree c
    rw [Cert.ReferenceIdeal.ReadP.val_main_v84_eq, e0, e1, e2, e3, e4, e5, e6, e7, Cert.ReferenceIdeal.Whole.v84_eq,
      ← Cert.Proof.Prep.v3_eq m ρ c, ← Cert.Proof.Prep.v6_eq m ρ c, ← Cert.Proof.Prep.v31_eq m ρ c]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
